-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40448x384 : Shape := ⟨2, ![40448, 384]⟩
abbrev S384x14464 : Shape := ⟨2, ![384, 14464]⟩
abbrev S16x896 : Shape := ⟨2, ![16, 896]⟩
abbrev S896x128 : Shape := ⟨2, ![896, 128]⟩
abbrev S1x128 : Shape := ⟨2, ![1, 128]⟩
abbrev S512x128 : Shape := ⟨2, ![512, 128]⟩
abbrev S_ : Shape := ⟨0, ![]⟩

class Facts : Prop where
  bitsLt_bf16_f32 : FTy.bits .bf16 < FTy.bits .f32
  bcast_S_S40448x384 : S_.BroadcastsInDim S40448x384 (![] : Fin 0 → Fin S40448x384.rank)
  reducesTo_S40448x384_S_d0_1 : S40448x384.ReducesTo [0, 1] S_
  h_S_ : 0 < S_.numel
  bcast_S_S384x14464 : S_.BroadcastsInDim S384x14464 (![] : Fin 0 → Fin S384x14464.rank)
  reducesTo_S384x14464_S_d0_1 : S384x14464.ReducesTo [0, 1] S_
  bcast_S_S16x896 : S_.BroadcastsInDim S16x896 (![] : Fin 0 → Fin S16x896.rank)
  reducesTo_S16x896_S_d0_1 : S16x896.ReducesTo [0, 1] S_
  bcast_S_S896x128 : S_.BroadcastsInDim S896x128 (![] : Fin 0 → Fin S896x128.rank)
  reducesTo_S896x128_S_d0_1 : S896x128.ReducesTo [0, 1] S_
  bcast_S_S1x128 : S_.BroadcastsInDim S1x128 (![] : Fin 0 → Fin S1x128.rank)
  reducesTo_S1x128_S_d0_1 : S1x128.ReducesTo [0, 1] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_arg4 : FVec F S1x128 .f32) (main_arg5 : FVec F S512x128 .f32) (main_v15 : IVec S_ 1) (main_v17 : FVec F S896x128 .f32) : IVec S_ 1 :=
  let main_cst_4 : FVec F S_ .f32 := constant S_ .f32 0x7F800000#32
  let main_v18 : FVec F S896x128 .f32 := broadcastInDim S896x128 ![] bcast_S_S896x128 main_cst_4
  let main_v19 : IVec S896x128 1 := cmpf .olt main_v17 main_v18
  let main_c_5 : IVec S_ 1 := constantI S_ 1 1#1
  let main_v20 : IVec S_ 1 := (fun x v => Host.reduce IntOp.andi x v reducesTo_S896x128_S_d0_1 h_S_) main_v19 main_c_5
  let main_v21 : IVec S_ 1 := andi main_v15 main_v20
  let main_v22 : FVec F S1x128 .f32 := Host.absf main_arg4
  let main_cst_6 : FVec F S_ .f32 := constant S_ .f32 0x7F800000#32
  let main_v23 : FVec F S1x128 .f32 := broadcastInDim S1x128 ![] bcast_S_S1x128 main_cst_6
  let main_v24 : IVec S1x128 1 := cmpf .olt main_v22 main_v23
  let main_c_7 : IVec S_ 1 := constantI S_ 1 1#1
  let main_v25 : IVec S_ 1 := (fun x v => Host.reduce IntOp.andi x v reducesTo_S1x128_S_d0_1 h_S_) main_v24 main_c_7
  let main_v26 : IVec S_ 1 := andi main_v21 main_v25
  let main_v27 : FVec F S512x128 .f32 := Host.absf main_arg5
  let main_cst_8 : FVec F S_ .f32 := constant S_ .f32 0x7F800000#32
  let main_v28 : FVec F S512x128 .f32 := broadcastInDim S512x128 ![] bcast_S_S512x128 main_cst_8
  let main_v29 : IVec S512x128 1 := cmpf .olt main_v27 main_v28
  let main_c_9 : IVec S_ 1 := constantI S_ 1 1#1
  let main_v30 : IVec S_ 1 := (fun x v => Host.reduce IntOp.andi x v reducesTo_S512x128_S_d0_1 h_S_) main_v29 main_c_9
  let main_v31 : IVec S_ 1 := andi main_v26 main_v30
  main_v31

def fn {F : FTy → Type} [FloatOps F] (main_arg0 : FVec F S40448x384 .bf16) (main_arg1 : FVec F S384x14464 .bf16) (main_arg2 : FVec F S16x896 .f32) (main_arg3 : FVec F S896x128 .bf16) (main_arg4 : FVec F S1x128 .f32) (main_arg5 : FVec F S512x128 .f32) : IVec S_ 1 :=
  let main_v0 : FVec F S40448x384 .f32 := (extf .f32 · bitsLt_bf16_f32) main_arg0
  let main_v1 : FVec F S40448x384 .f32 := Host.absf main_v0
  let main_cst : FVec F S_ .f32 := constant S_ .f32 0x7F800000#32
  let main_v2 : FVec F S40448x384 .f32 := broadcastInDim S40448x384 ![] bcast_S_S40448x384 main_cst
  let main_v3 : IVec S40448x384 1 := cmpf .olt main_v1 main_v2
  let main_c : IVec S_ 1 := constantI S_ 1 1#1
  let main_v4 : IVec S_ 1 := (fun x v => Host.reduce IntOp.andi x v reducesTo_S40448x384_S_d0_1 h_S_) main_v3 main_c
  let main_v5 : FVec F S384x14464 .f32 := (extf .f32 · bitsLt_bf16_f32) main_arg1
  let main_v6 : FVec F S384x14464 .f32 := Host.absf main_v5
  let main_cst_0 : FVec F S_ .f32 := constant S_ .f32 0x7F800000#32
  let main_v7 : FVec F S384x14464 .f32 := broadcastInDim S384x14464 ![] bcast_S_S384x14464 main_cst_0
  let main_v8 : IVec S384x14464 1 := cmpf .olt main_v6 main_v7
  let main_c_1 : IVec S_ 1 := constantI S_ 1 1#1
  let main_v9 : IVec S_ 1 := (fun x v => Host.reduce IntOp.andi x v reducesTo_S384x14464_S_d0_1 h_S_) main_v8 main_c_1
  let main_v10 : IVec S_ 1 := andi main_v4 main_v9
  let main_v11 : FVec F S16x896 .f32 := Host.absf main_arg2
  let main_cst_2 : FVec F S_ .f32 := constant S_ .f32 0x7F800000#32
  let main_v12 : FVec F S16x896 .f32 := broadcastInDim S16x896 ![] bcast_S_S16x896 main_cst_2
  let main_v13 : IVec S16x896 1 := cmpf .olt main_v11 main_v12
  let main_c_3 : IVec S_ 1 := constantI S_ 1 1#1
  let main_v14 : IVec S_ 1 := (fun x v => Host.reduce IntOp.andi x v reducesTo_S16x896_S_d0_1 h_S_) main_v13 main_c_3
  let main_v15 : IVec S_ 1 := andi main_v10 main_v14
  let main_v16 : FVec F S896x128 .f32 := (extf .f32 · bitsLt_bf16_f32) main_arg3
  let main_v17 : FVec F S896x128 .f32 := Host.absf main_v16
  fn_part1 (F := F) main_arg4 main_arg5 main_v15 main_v17
-- ==== Kernel.lean ====
abbrev S40448x384 : Shape := ⟨2, ![40448, 384]⟩
abbrev S384x14464 : Shape := ⟨2, ![384, 14464]⟩
abbrev S16x896 : Shape := ⟨2, ![16, 896]⟩
abbrev S896x128 : Shape := ⟨2, ![896, 128]⟩
abbrev S1x128 : Shape := ⟨2, ![1, 128]⟩
abbrev S512x128 : Shape := ⟨2, ![512, 128]⟩
abbrev S512x40448 : Shape := ⟨2, ![512, 40448]⟩
abbrev S512x384 : Shape := ⟨2, ![512, 384]⟩
abbrev S512x512 : Shape := ⟨2, ![512, 512]⟩
abbrev S384x1792 : Shape := ⟨2, ![384, 1792]⟩
abbrev S512x1792 : Shape := ⟨2, ![512, 1792]⟩
abbrev S512x896 : Shape := ⟨2, ![512, 896]⟩
abbrev S1x896 : Shape := ⟨2, ![1, 896]⟩
abbrev S384x128 : Shape := ⟨2, ![384, 128]⟩
abbrev S512x40000 : Shape := ⟨2, ![512, 40000]⟩

abbrev nBuf : Space → Nat
  | .hbm => 8
  | .vmem => 9
  | .smem => 0
  | _ => 0

abbrev bufTy : (tb : Table) → Fin (tcTables nBuf tb) → BufTy
  | .hbm, ⟨0, _⟩ => ⟨S40448x384, .bf16⟩
  | .hbm, ⟨1, _⟩ => ⟨S384x14464, .bf16⟩
  | .hbm, ⟨2, _⟩ => ⟨S16x896, .f32⟩
  | .hbm, ⟨3, _⟩ => ⟨S896x128, .bf16⟩
  | .hbm, ⟨4, _⟩ => ⟨S1x128, .f32⟩
  | .hbm, ⟨5, _⟩ => ⟨S512x128, .f32⟩
  | .hbm, ⟨6, _⟩ => ⟨S512x40448, .f32⟩
  | .hbm, ⟨7, _⟩ => ⟨S512x40000, .f32⟩
  | .local _ .vmem, ⟨0, _⟩ => ⟨S512x384, .bf16⟩
  | .local _ .vmem, ⟨1, _⟩ => ⟨S512x384, .bf16⟩
  | .local _ .vmem, ⟨2, _⟩ => ⟨S384x14464, .bf16⟩
  | .local _ .vmem, ⟨3, _⟩ => ⟨S16x896, .f32⟩
  | .local _ .vmem, ⟨4, _⟩ => ⟨S896x128, .bf16⟩
  | .local _ .vmem, ⟨5, _⟩ => ⟨S1x128, .f32⟩
  | .local _ .vmem, ⟨6, _⟩ => ⟨S512x128, .f32⟩
  | .local _ .vmem, ⟨7, _⟩ => ⟨S512x512, .f32⟩
  | .local _ .vmem, ⟨8, _⟩ => ⟨S512x512, .f32⟩
  | _, _ => ⟨S40448x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![79], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x14464 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S896x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S512x384_S512x384_0_0 : ∀ a, (![0, 0] : Fin 2 → Nat) a + S512x384.size a ≤ S512x384.size a
  h_S512x384 : 0 < S512x384.numel
  inb_S16x896_S16x896_0_0 : ∀ a, (![0, 0] : Fin 2 → Nat) a + S16x896.size a ≤ S16x896.size a
  h_S16x896 : 0 < S16x896.numel
  inb_S384x14464_S384x1792_0_0 : ∀ a, (![0, 0] : Fin 2 → Nat) a + S384x1792.size a ≤ S384x14464.size a
  h_S384x1792 : 0 < S384x1792.numel
  slices_S512x1792_o0_0_S512x896 : S512x1792.Slices ![0, 0] S512x896
  slices_S16x896_o0_0_S1x896 : S16x896.Slices ![0, 0] S1x896
  broadcasts_S1x896_S512x896 : S1x896.Broadcasts S512x896
  slices_S512x1792_o0_896_S512x896 : S512x1792.Slices ![0, 896] S512x896
  slices_S16x896_o1_0_S1x896 : S16x896.Slices ![1, 0] S1x896
  inb_S384x14464_S384x1792_0_1792 : ∀ a, (![0, 1792] : Fin 2 → Nat) a + S384x1792.size a ≤ S384x14464.size a
  slices_S16x896_o2_0_S1x896 : S16x896.Slices ![2, 0] S1x896
  slices_S16x896_o3_0_S1x896 : S16x896.Slices ![3, 0] S1x896
  inb_S384x14464_S384x1792_0_3584 : ∀ a, (![0, 3584] : Fin 2 → Nat) a + S384x1792.size a ≤ S384x14464.size a
  slices_S16x896_o4_0_S1x896 : S16x896.Slices ![4, 0] S1x896
  slices_S16x896_o5_0_S1x896 : S16x896.Slices ![5, 0] S1x896
  inb_S384x14464_S384x1792_0_5376 : ∀ a, (![0, 5376] : Fin 2 → Nat) a + S384x1792.size a ≤ S384x14464.size a
  slices_S16x896_o6_0_S1x896 : S16x896.Slices ![6, 0] S1x896
  slices_S16x896_o7_0_S1x896 : S16x896.Slices ![7, 0] S1x896
  inb_S384x14464_S384x1792_0_7168 : ∀ a, (![0, 7168] : Fin 2 → Nat) a + S384x1792.size a ≤ S384x14464.size a
  slices_S16x896_o8_0_S1x896 : S16x896.Slices ![8, 0] S1x896
  slices_S16x896_o9_0_S1x896 : S16x896.Slices ![9, 0] S1x896
  inb_S384x14464_S384x1792_0_8960 : ∀ a, (![0, 8960] : Fin 2 → Nat) a + S384x1792.size a ≤ S384x14464.size a
  slices_S16x896_o10_0_S1x896 : S16x896.Slices ![10, 0] S1x896
  slices_S16x896_o11_0_S1x896 : S16x896.Slices ![11, 0] S1x896
  inb_S384x14464_S384x1792_0_10752 : ∀ a, (![0, 10752] : Fin 2 → Nat) a + S384x1792.size a ≤ S384x14464.size a
  slices_S16x896_o12_0_S1x896 : S16x896.Slices ![12, 0] S1x896
  slices_S16x896_o13_0_S1x896 : S16x896.Slices ![13, 0] S1x896
  inb_S384x14464_S384x1792_0_12544 : ∀ a, (![0, 12544] : Fin 2 → Nat) a + S384x1792.size a ≤ S384x14464.size a
  slices_S16x896_o14_0_S1x896 : S16x896.Slices ![14, 0] S1x896
  slices_S16x896_o15_0_S1x896 : S16x896.Slices ![15, 0] S1x896
  bitsLt_bf16_f32 : FTy.bits .bf16 < FTy.bits .f32
  inb_S384x14464_S384x128_0_14336 : ∀ a, (![0, 14336] : Fin 2 → Nat) a + S384x128.size a ≤ S384x14464.size a
  h_S384x128 : 0 < S384x128.numel
  inb_S896x128_S896x128_0_0 : ∀ a, (![0, 0] : Fin 2 → Nat) a + S896x128.size a ≤ S896x128.size a
  h_S896x128 : 0 < S896x128.numel
  inb_S1x128_S1x128_0_0 : ∀ a, (![0, 0] : Fin 2 → Nat) a + S1x128.size a ≤ S1x128.size a
  h_S1x128 : 0 < S1x128.numel
  broadcasts_S1x128_S512x128 : S1x128.Broadcasts S512x128
  inb_S512x128_S512x128_0_0 : ∀ a, (![0, 0] : Fin 2 → Nat) a + S512x128.size a ≤ S512x128.size a
  h_S512x128 : 0 < S512x128.numel
  inb_S512x512_S512x512_0_0 : ∀ a, (![0, 0] : Fin 2 → Nat) a + S512x512.size a ≤ S512x512.size a
  h_S512x512 : 0 < S512x512.numel
  slices_S512x40448_S512x40000_0_0 : S512x40448.Slices ![0, 0] S512x40000
  dot_S512x384_S384x1792_S512x1792_1_0_0_1_n_n_wf : DotDims.WF S512x384 S384x1792 S512x1792 [1] [0] [0] [1] [] []
  dot_S512x384_S384x128_S512x128_1_0_0_1_n_n_wf : DotDims.WF S512x384 S384x128 S512x128 [1] [0] [0] [1] [] []
  dot_S512x896_S896x128_S512x128_1_0_0_1_n_n_wf : DotDims.WF S512x896 S896x128 S512x128 [1] [0] [0] [1] [] []
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x384.size a ≤ S40448x384.size a
  hwx0_0 : ∀ i : grid0.Coords, EltTy.bits .bf16 = 32 ∨ (Rect.block (s := S40448x384) S512x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x14464.size a ≤ S384x14464.size a
  hwx0_1 : ∀ i : grid0.Coords, EltTy.bits .bf16 = 32 ∨ (Rect.block (s := S384x14464) S384x14464.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x896.size a ≤ S16x896.size a
  hwx0_2 : ∀ i : grid0.Coords, EltTy.bits .f32 = 32 ∨ (Rect.block (s := S16x896) S16x896.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S896x128.size a ≤ S896x128.size a
  hwx0_3 : ∀ i : grid0.Coords, EltTy.bits .bf16 = 32 ∨ (Rect.block (s := S896x128) S896x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x40448.size a
  hwx0_6 : ∀ i : grid0.Coords, EltTy.bits .f32 = 32 ∨ (Rect.block (s := S512x40448) S512x512.size (cc0_transform_6 i) (hinb0_6 i)).WholeWords (EltTy.packing .f32)

variable [Facts₀]

def dot_S512x384_S384x1792_S512x1792_1_0_0_1_n_n : DotDims S512x384 S384x1792 S512x1792 where
  lhsContracting := [1]
  rhsContracting := [0]
  lhsNonContracting := [0]
  rhsNonContracting := [1]
  lhsBatch := []
  rhsBatch := []
  wf := dot_S512x384_S384x1792_S512x1792_1_0_0_1_n_n_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x896_S896x128_S512x128_1_0_0_1_n_n : DotDims S512x896 S896x128 S512x128 where
  lhsContracting := [1]
  rhsContracting := [0]
  lhsNonContracting := [0]
  rhsNonContracting := [1]
  lhsBatch := []
  rhsBatch := []
  wf := dot_S512x896_S896x128_S512x128_1_0_0_1_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg0) S512x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x14464.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x896.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S896x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S40448x384 : Shape := ⟨2, ![40448, 384]⟩
abbrev S384x14464 : Shape := ⟨2, ![384, 14464]⟩
abbrev S16x896 : Shape := ⟨2, ![16, 896]⟩
abbrev S896x128 : Shape := ⟨2, ![896, 128]⟩
abbrev S1x128 : Shape := ⟨2, ![1, 128]⟩
abbrev S512x128 : Shape := ⟨2, ![512, 128]⟩
abbrev S0 : Shape := ⟨1, ![0]⟩
abbrev S_ : Shape := ⟨0, ![]⟩
abbrev S512x40448 : Shape := ⟨2, ![512, 40448]⟩
abbrev S256x384 : Shape := ⟨2, ![256, 384]⟩
abbrev S512x256 : Shape := ⟨2, ![512, 256]⟩
abbrev S256x14464 : Shape := ⟨2, ![256, 14464]⟩
abbrev S256x896 : Shape := ⟨2, ![256, 896]⟩
abbrev S1x896 : Shape := ⟨2, ![1, 896]⟩
abbrev S256x128 : Shape := ⟨2, ![256, 128]⟩
abbrev S512x40000 : Shape := ⟨2, ![512, 40000]⟩

abbrev nBuf : Space → Nat
  | .hbm => 12
  | .vmem => 9
  | .smem => 0
  | _ => 0

abbrev bufTy : (tb : Table) → Fin (tcTables nBuf tb) → BufTy
  | .hbm, ⟨0, _⟩ => ⟨S40448x384, .bf16⟩
  | .hbm, ⟨1, _⟩ => ⟨S384x14464, .bf16⟩
  | .hbm, ⟨2, _⟩ => ⟨S16x896, .f32⟩
  | .hbm, ⟨3, _⟩ => ⟨S896x128, .bf16⟩
  | .hbm, ⟨4, _⟩ => ⟨S1x128, .f32⟩
  | .hbm, ⟨5, _⟩ => ⟨S512x128, .f32⟩
  | .hbm, ⟨6, _⟩ => ⟨S0, .i32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x40448, .f32⟩
  | .hbm, ⟨11, _⟩ => ⟨S512x40000, .f32⟩
  | .local _ .vmem, ⟨0, _⟩ => ⟨S256x384, .bf16⟩
  | .local _ .vmem, ⟨1, _⟩ => ⟨S256x384, .bf16⟩
  | .local _ .vmem, ⟨2, _⟩ => ⟨S384x14464, .bf16⟩
  | .local _ .vmem, ⟨3, _⟩ => ⟨S16x896, .f32⟩
  | .local _ .vmem, ⟨4, _⟩ => ⟨S896x128, .bf16⟩
  | .local _ .vmem, ⟨5, _⟩ => ⟨S1x128, .f32⟩
  | .local _ .vmem, ⟨6, _⟩ => ⟨S512x128, .f32⟩
  | .local _ .vmem, ⟨7, _⟩ => ⟨S512x256, .f32⟩
  | .local _ .vmem, ⟨8, _⟩ => ⟨S512x256, .f32⟩
  | _, _ => ⟨S40448x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![158], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x14464 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S896x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  hz_S0 : S0.numel = 0
  bcast_S_S512x128 : S_.BroadcastsInDim S512x128 (![] : Fin 0 → Fin S512x128.rank)
  inb_S256x384_S256x384_0_0 : ∀ a, (![0, 0] : Fin 2 → Nat) a + S256x384.size a ≤ S256x384.size a
  h_S256x384 : 0 < S256x384.numel
  inb_S384x14464_S384x14464_0_0 : ∀ a, (![0, 0] : Fin 2 → Nat) a + S384x14464.size a ≤ S384x14464.size a
  h_S384x14464 : 0 < S384x14464.numel
  inb_S16x896_S16x896_0_0 : ∀ a, (![0, 0] : Fin 2 → Nat) a + S16x896.size a ≤ S16x896.size a
  h_S16x896 : 0 < S16x896.numel
  slices_S256x14464_o0_0_S256x896 : S256x14464.Slices ![0, 0] S256x896
  slices_S16x896_o0_0_S1x896 : S16x896.Slices ![0, 0] S1x896
  broadcasts_S1x896_S256x896 : S1x896.Broadcasts S256x896
  slices_S256x14464_o0_896_S256x896 : S256x14464.Slices ![0, 896] S256x896
  slices_S16x896_o1_0_S1x896 : S16x896.Slices ![1, 0] S1x896
  slices_S256x14464_o0_1792_S256x896 : S256x14464.Slices ![0, 1792] S256x896
  slices_S16x896_o2_0_S1x896 : S16x896.Slices ![2, 0] S1x896
  slices_S256x14464_o0_2688_S256x896 : S256x14464.Slices ![0, 2688] S256x896
  slices_S16x896_o3_0_S1x896 : S16x896.Slices ![3, 0] S1x896
  slices_S256x14464_o0_3584_S256x896 : S256x14464.Slices ![0, 3584] S256x896
  slices_S16x896_o4_0_S1x896 : S16x896.Slices ![4, 0] S1x896
  slices_S256x14464_o0_4480_S256x896 : S256x14464.Slices ![0, 4480] S256x896
  slices_S16x896_o5_0_S1x896 : S16x896.Slices ![5, 0] S1x896
  slices_S256x14464_o0_5376_S256x896 : S256x14464.Slices ![0, 5376] S256x896
  slices_S16x896_o6_0_S1x896 : S16x896.Slices ![6, 0] S1x896
  slices_S256x14464_o0_6272_S256x896 : S256x14464.Slices ![0, 6272] S256x896
  slices_S16x896_o7_0_S1x896 : S16x896.Slices ![7, 0] S1x896
  slices_S256x14464_o0_7168_S256x896 : S256x14464.Slices ![0, 7168] S256x896
  slices_S16x896_o8_0_S1x896 : S16x896.Slices ![8, 0] S1x896
  slices_S256x14464_o0_8064_S256x896 : S256x14464.Slices ![0, 8064] S256x896
  slices_S16x896_o9_0_S1x896 : S16x896.Slices ![9, 0] S1x896
  slices_S256x14464_o0_8960_S256x896 : S256x14464.Slices ![0, 8960] S256x896
  slices_S16x896_o10_0_S1x896 : S16x896.Slices ![10, 0] S1x896
  slices_S256x14464_o0_9856_S256x896 : S256x14464.Slices ![0, 9856] S256x896
  slices_S16x896_o11_0_S1x896 : S16x896.Slices ![11, 0] S1x896
  slices_S256x14464_o0_10752_S256x896 : S256x14464.Slices ![0, 10752] S256x896
  slices_S16x896_o12_0_S1x896 : S16x896.Slices ![12, 0] S1x896
  slices_S256x14464_o0_11648_S256x896 : S256x14464.Slices ![0, 11648] S256x896
  slices_S16x896_o13_0_S1x896 : S16x896.Slices ![13, 0] S1x896
  slices_S256x14464_o0_12544_S256x896 : S256x14464.Slices ![0, 12544] S256x896
  slices_S16x896_o14_0_S1x896 : S16x896.Slices ![14, 0] S1x896
  slices_S256x14464_o0_13440_S256x896 : S256x14464.Slices ![0, 13440] S256x896
  slices_S16x896_o15_0_S1x896 : S16x896.Slices ![15, 0] S1x896
  bitsLt_bf16_f32 : FTy.bits .bf16 < FTy.bits .f32
  slices_S256x14464_o0_14336_S256x128 : S256x14464.Slices ![0, 14336] S256x128
  inb_S896x128_S896x128_0_0 : ∀ a, (![0, 0] : Fin 2 → Nat) a + S896x128.size a ≤ S896x128.size a
  h_S896x128 : 0 < S896x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x256_S512x256_0_0 : ∀ a, (![0, 0] : Fin 2 → Nat) a + S512x256.size a ≤ S512x256.size a
  h_S512x256 : 0 < S512x256.numel
  slices_S512x40448_S512x40000_0_0 : S512x40448.Slices ![0, 0] S512x40000
  scatter_S512x128_S0_S512x128_01_n_n_0_wf : ScatterDims.WF S512x128 S0 S512x128 [0, 1] [] [] 0
  dot_S256x384_S384x14464_S256x14464_1_0_0_1_n_n_wf : DotDims.WF S256x384 S384x14464 S256x14464 [1] [0] [0] [1] [] []
  dot_S256x896_S896x128_S256x128_1_0_0_1_n_n_wf : DotDims.WF S256x896 S896x128 S256x128 [1] [0] [0] [1] [] []
  dot_S512x128_S256x128_S512x256_1_1_0_0_n_n_wf : DotDims.WF S512x128 S256x128 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x384.size a ≤ S40448x384.size a
  hwx0_0 : ∀ i : grid0.Coords, EltTy.bits .bf16 = 32 ∨ (Rect.block (s := S40448x384) S256x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x14464.size a ≤ S384x14464.size a
  hwx0_1 : ∀ i : grid0.Coords, EltTy.bits .bf16 = 32 ∨ (Rect.block (s := S384x14464) S384x14464.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x896.size a ≤ S16x896.size a
  hwx0_2 : ∀ i : grid0.Coords, EltTy.bits .f32 = 32 ∨ (Rect.block (s := S16x896) S16x896.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S896x128.size a ≤ S896x128.size a
  hwx0_3 : ∀ i : grid0.Coords, EltTy.bits .bf16 = 32 ∨ (Rect.block (s := S896x128) S896x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x40448.size a
  hwx0_6 : ∀ i : grid0.Coords, EltTy.bits .f32 = 32 ∨ (Rect.block (s := S512x40448) S512x256.size (cc0_transform_6 i) (hinb0_6 i)).WholeWords (EltTy.packing .f32)

variable [Facts₀]

def scatter_S512x128_S0_S512x128_01_n_n_0 : ScatterDims S512x128 S0 S512x128 where
  updateWindowDims := [0, 1]
  insertedWindowDims := []
  scatterDimsToOperandDims := []
  indexVectorDim := 0
  wf := scatter_S512x128_S0_S512x128_01_n_n_0_wf
def dot_S256x384_S384x14464_S256x14464_1_0_0_1_n_n : DotDims S256x384 S384x14464 S256x14464 where
  lhsContracting := [1]
  rhsContracting := [0]
  lhsNonContracting := [0]
  rhsNonContracting := [1]
  lhsBatch := []
  rhsBatch := []
  wf := dot_S256x384_S384x14464_S256x14464_1_0_0_1_n_n_wf
def dot_S256x896_S896x128_S256x128_1_0_0_1_n_n : DotDims S256x896 S896x128 S256x128 where
  lhsContracting := [1]
  rhsContracting := [0]
  lhsNonContracting := [0]
  rhsNonContracting := [1]
  lhsBatch := []
  rhsBatch := []
  wf := dot_S256x896_S896x128_S256x128_1_0_0_1_n_n_wf
def dot_S512x128_S256x128_S512x256_1_1_0_0_n_n : DotDims S512x128 S256x128 S512x256 where
  lhsContracting := [1]
  rhsContracting := [1]
  lhsNonContracting := [0]
  rhsNonContracting := [0]
  lhsBatch := []
  rhsBatch := []
  wf := dot_S512x128_S256x128_S512x256_1_1_0_0_n_n_wf

abbrev win0_0 : Pipeline.Window sig grid0 :=
  Pipeline.Window.ofSpec (Memref.whole main_arg0) S256x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x14464.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x896.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S896x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.Spec.lean ====
/-
  The scores of the character-CNN word encoder, one (query, vocabulary row) pair at a time, over the extended reals.
  For a vocabulary row `s : Fin 384 → EReal` (its characters and word embedding, flattened), the packed weights
  `wc : [384, 14464]`, the additive time mask `mask : [16, 896]`, the tiled projection `wa : [896, 128]`, the bias
  `bias : [1, 128]` and the queries `x : [512, 128]`:
    conv n      = ∑ k, s k · wc[k, n]                              (column n of the one big product)
    cand t j    = conv (896·t + j) + mask[t, j]                    (time position t, channel j)
    pool j n    = max (… max (cand 0 j) (cand 1 j) …) (cand n j)   (the running maximum over time, left to right)
    hidden h    = tanh ((∑ j, tanh (pool j 15) · wa[j, h]) + conv (14336 + h) + bias[0, h])
    score b     = ∑ h, x[b, h] · hidden h.
  Both programs compute exactly this, in this order of operations, for every row of their vocabulary block; they
  differ only in how many rows a block has and in whether the big product is formed whole or in column chunks.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals with literal extents. -/
abbrev Arr (a b : Nat) : Type := (⟨2, ![a, b]⟩ : Shape).Idx → EReal

/-- Entry `[k, n]` of the packed weights, by the column's number (zero past the last column, which no program reads). -/
def wcol (wc : Arr 384 14464) (k : Fin 384) (n : Nat) : EReal := if h : n < 14464 then wc (ix2 k ⟨n, h⟩) else 0

/-- Entry `[t, j]` of the time mask, by the row's number (zero past the last row, which no program reads). -/
def mrow (mask : Arr 16 896) (t : Nat) (j : Fin 896) : EReal := if h : t < 16 then mask (ix2 ⟨t, h⟩ j) else 0

/-- Column `n` of the vocabulary row's product with the packed weights. -/
def conv (s : Fin 384 → EReal) (wc : Arr 384 14464) (n : Nat) : EReal := ∑ k : Fin 384, s k * wcol wc k n

/-- The masked convolution output at time position `t`, channel `j`. -/
def cand (s : Fin 384 → EReal) (wc : Arr 384 14464) (mask : Arr 16 896) (t : Nat) (j : Fin 896) : EReal :=
  conv s wc (t * 896 + j.val) + mrow mask t j

/-- The running maximum over the time positions `0 … n`, taken left to right. -/
def pool (s : Fin 384 → EReal) (wc : Arr 384 14464) (mask : Arr 16 896) (j : Fin 896) : Nat → EReal
  | 0 => cand s wc mask 0 j
  | n + 1 => max (pool s wc mask j n) (cand s wc mask (n + 1) j)

/-- The hidden activation `h` of the vocabulary row. -/
def hidden (s : Fin 384 → EReal) (wc : Arr 384 14464) (mask : Arr 16 896) (wa : Arr 896 128) (bias : Arr 1 128)
    (h : Fin 128) : EReal :=
  Ideal.tanh ((∑ j : Fin 896, Ideal.tanh (pool s wc mask j 15) * wa (ix2 j h)) + conv s wc (14336 + h.val) + bias (ix2 0 h))

/-- The score of query `b` against the vocabulary row. -/
def score (wc : Arr 384 14464) (mask : Arr 16 896) (wa : Arr 896 128) (bias : Arr 1 128) (x : Arr 512 128)
    (s : Fin 384 → EReal) (b : Fin 512) : EReal :=
  ∑ h : Fin 128, x (ix2 b h) * hidden s wc mask wa bias h

/-- The padded score matrix `[512, 40448]`: entry `[b, v]` scores query `b` against vocabulary row `v`. -/
def scores (slab : Arr 40448 384) (wc : Arr 384 14464) (mask : Arr 16 896) (wa : Arr 896 128) (bias : Arr 1 128)
    (x : Arr 512 128) : Arr 512 40448 :=
  fun i => score wc mask wa bias x (fun k => slab (ix2 (i 1) k)) (i 0)

/-- The score matrix `[512, 40000]`: the padded one without the padding's vocabulary rows. -/
def result (slab : Arr 40448 384) (wc : Arr 384 14464) (mask : Arr 16 896) (wa : Arr 896 128) (bias : Arr 1 128)
    (x : Arr 512 128) : Arr 512 40000 :=
  fun i => scores slab wc mask wa bias x (ix2 (i 0) ⟨(i 1).val, by have := idx2_lt1 i; omega⟩)

end Cert.Spec

end
-- ==== Proof.LibIndexReads.lean ====
/-
  Three operations of a kernel body read at one index, over rank-2 arrays with any extents, at the ideal values:
  a matrix product into a zero accumulator whose contraction runs over the left operand's columns and the right
  operand's rows (`rows × columns`), the same with the contraction over BOTH operands' columns (`rows × rows`, the
  right operand transposed), and a load through a unit-stride rectangle. Each product is the plain sum, over the one
  contraction coordinate, of the operands' entries; a load reads the array at the rectangle's offset plus the index.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.IndexReads

open Idealize.ShloMosaic Idealize.ShloMosaic.ValueIdx

/-- A load through a unit-stride rectangle reads the array at the offset plus the index, axis by axis. -/
theorem ld_unit_apply {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).idx y) = X k
  refine congrArg X (funext fun a => Fin.ext ?_)
  rw [hk a]
  show off a + 1 * (y a).val = _
  rw [Nat.one_mul]

/-- Two coordinates of one index at equal axis numbers are equal. -/
theorem coord_congr {S : Shape} (j : S.Idx) (p q : Nat) (hp : p < S.rank) (hq : q < S.rank) (h : p = q) :
    (j ⟨p, hp⟩).val = (j ⟨q, hq⟩).val := by subst h; rfl

section RowsTimesColumns

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row is the result's row. -/
theorem rc_lhs_0 (j : (⟨2, ![M, N]⟩ : Shape).Idx) (k : d.contr.Idx) : (d.lhsIdx j k 0 : ℕ) = j 0 := by
  have hmem : (0 : Fin 2) ∈ d.lhsNonContracting := by rw [hln]; exact List.mem_singleton.mpr rfl
  have hnb : (0 : Fin 2) ∉ d.lhsBatch := by rw [hlb]; exact List.not_mem_nil
  unfold DotDims.lhsIdx
  rw [dif_neg hnb, dif_pos hmem]
  simp only [Fin.val_cast]
  exact coord_congr j _ _ _ _ (by simp [hlb, hln])

include hrn hrb hln hlb in
/-- The right operand's column is the result's column. -/
theorem rc_rhs_1 (j : (⟨2, ![M, N]⟩ : Shape).Idx) (k : d.contr.Idx) : (d.rhsIdx j k 1 : ℕ) = j 1 := by
  have hmem : (1 : Fin 2) ∈ d.rhsNonContracting := by rw [hrn]; exact List.mem_singleton.mpr rfl
  have hnb : (1 : Fin 2) ∉ d.rhsBatch := by rw [hrb]; exact List.not_mem_nil
  unfold DotDims.rhsIdx
  rw [dif_neg hnb, dif_pos hmem]
  simp only [Fin.val_cast]
  exact coord_congr j _ _ _ _ (by simp [hlb, hln, hrn])

include hlc in
/-- The contraction has one axis … -/
theorem rc_rank : d.contr.rank = 1 := by rw [d.rank_contr, hlc]; rfl

include hlc in
/-- … of the left operand's column extent. -/
theorem rc_size : d.contr.size ⟨0, by rw [rc_rank d hlc]; exact Nat.one_pos⟩ = K := by
  have h := d.size_contr 0 (by rw [hlc]; exact Nat.one_pos)
  rw [h]
  have e : d.lhsContracting[0]'(by rw [hlc]; exact Nat.one_pos) = (1 : Fin 2) := by simp [hlc]
  rw [e]; rfl

include hlc hrc hln hrn hlb hrb in
/-- A `rows × columns` product into the zero accumulator, at `[r, q]`: the sum over `k` of `lhs[r, k] · rhs[k, q]`. -/
theorem matmul_rc_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant (F := Ideal) ⟨2, ![M, N]⟩ .f32 0x00000000#32) (ix2 r q)
      = ∑ k : Fin K, lhs (ix2 r k) * rhs (ix2 k q) := by
  rw [Ideal.matmul_constant_zero_apply]
  refine Fintype.sum_equiv (contrEquiv1 d K (rc_rank d hlc) (rc_size d hlc)) _ _ (fun k => ?_)
  have hk : ((contrEquiv1 d K (rc_rank d hlc) (rc_size d hlc)) k).val = (k ⟨0, by rw [rc_rank d hlc]; exact Nat.one_pos⟩).val := rfl
  have hl : d.lhsIdx (ix2 r q) k = ix2 r ((contrEquiv1 d K (rc_rank d hlc) (rc_size d hlc)) k) := by
    funext a; refine Fin.ext ?_
    match a with
    | ⟨0, _⟩ => exact rc_lhs_0 d hln hlb _ _
    | ⟨1, _⟩ => exact (d.lhsIdx_val_of_single hlc _ _).trans hk.symm
  have hrr : d.rhsIdx (ix2 r q) k = ix2 ((contrEquiv1 d K (rc_rank d hlc) (rc_size d hlc)) k) q := by
    funext a; refine Fin.ext ?_
    match a with
    | ⟨0, _⟩ => exact (d.rhsIdx_val_of_single hrc _ _).trans hk.symm
    | ⟨1, _⟩ => exact rc_rhs_1 d hln hrn hlb hrb _ _
  rw [hl, hrr]

end RowsTimesColumns

section RowsTimesRows

variable {B H R : Nat} (d : DotDims ⟨2, ![B, H]⟩ ⟨2, ![R, H]⟩ ⟨2, ![B, R]⟩)
  (hlc : d.lhsContracting = [1]) (hrc : d.rhsContracting = [1])
  (hln : d.lhsNonContracting = [0]) (hrn : d.rhsNonContracting = [0])
  (hlb : d.lhsBatch = []) (hrb : d.rhsBatch = [])

include hln hlb in
/-- The left operand's row is the result's row. -/
theorem rr_lhs_0 (j : (⟨2, ![B, R]⟩ : Shape).Idx) (k : d.contr.Idx) : (d.lhsIdx j k 0 : ℕ) = j 0 := by
  have hmem : (0 : Fin 2) ∈ d.lhsNonContracting := by rw [hln]; exact List.mem_singleton.mpr rfl
  have hnb : (0 : Fin 2) ∉ d.lhsBatch := by rw [hlb]; exact List.not_mem_nil
  unfold DotDims.lhsIdx
  rw [dif_neg hnb, dif_pos hmem]
  simp only [Fin.val_cast]
  exact coord_congr j _ _ _ _ (by simp [hlb, hln])

include hrn hrb hln hlb in
/-- The right operand's ROW is the result's column. -/
theorem rr_rhs_0 (j : (⟨2, ![B, R]⟩ : Shape).Idx) (k : d.contr.Idx) : (d.rhsIdx j k 0 : ℕ) = j 1 := by
  have hmem : (0 : Fin 2) ∈ d.rhsNonContracting := by rw [hrn]; exact List.mem_singleton.mpr rfl
  have hnb : (0 : Fin 2) ∉ d.rhsBatch := by rw [hrb]; exact List.not_mem_nil
  unfold DotDims.rhsIdx
  rw [dif_neg hnb, dif_pos hmem]
  simp only [Fin.val_cast]
  exact coord_congr j _ _ _ _ (by simp [hlb, hln, hrn])

include hlc in
theorem rr_rank : d.contr.rank = 1 := by rw [d.rank_contr, hlc]; rfl

include hlc in
theorem rr_size : d.contr.size ⟨0, by rw [rr_rank d hlc]; exact Nat.one_pos⟩ = H := by
  have h := d.size_contr 0 (by rw [hlc]; exact Nat.one_pos)
  rw [h]
  have e : d.lhsContracting[0]'(by rw [hlc]; exact Nat.one_pos) = (1 : Fin 2) := by simp [hlc]
  rw [e]; rfl

include hlc hrc hln hrn hlb hrb in
/-- A `rows × rows` product (the right operand transposed) into the zero accumulator, at `[b, r]`: the sum over
    `h` of `lhs[b, h] · rhs[r, h]`. -/
theorem matmul_rr_apply {φ₁ φ₂ : FTy} (prec : Option ContractPrecision) (lhs : FVec Ideal ⟨2, ![B, H]⟩ φ₁)
    (rhs : FVec Ideal ⟨2, ![R, H]⟩ φ₂) (b : Fin B) (r : Fin R) :
    FloatOps.matmul d prec lhs rhs (constant (F := Ideal) ⟨2, ![B, R]⟩ .f32 0x00000000#32) (ix2 b r)
      = ∑ h : Fin H, lhs (ix2 b h) * rhs (ix2 r h) := by
  rw [Ideal.matmul_constant_zero_apply]
  refine Fintype.sum_equiv (contrEquiv1 d H (rr_rank d hlc) (rr_size d hlc)) _ _ (fun k => ?_)
  have hk : ((contrEquiv1 d H (rr_rank d hlc) (rr_size d hlc)) k).val = (k ⟨0, by rw [rr_rank d hlc]; exact Nat.one_pos⟩).val := rfl
  have hl : d.lhsIdx (ix2 b r) k = ix2 b ((contrEquiv1 d H (rr_rank d hlc) (rr_size d hlc)) k) := by
    funext a; refine Fin.ext ?_
    match a with
    | ⟨0, _⟩ => exact rr_lhs_0 d hln hlb _ _
    | ⟨1, _⟩ => exact (d.lhsIdx_val_of_single hlc _ _).trans hk.symm
  have hrr : d.rhsIdx (ix2 b r) k = ix2 r ((contrEquiv1 d H (rr_rank d hlc) (rr_size d hlc)) k) := by
    funext a; refine Fin.ext ?_
    match a with
    | ⟨0, _⟩ => exact rr_rhs_0 d hln hrn hlb hrb _ _
    | ⟨1, _⟩ => exact (d.rhsIdx_val_of_single hrc _ _).trans hk.symm
  rw [hl, hrr]

end RowsTimesRows

end Cert.IndexReads

end
-- ==== Proof.KPay.lean ====
/-
  What the kernel's body leaves in its output block, read at one entry: entry `[b, r]` of the block is the score of
  query `b` against row `r` of the vocabulary block. The body forms the big product in eight column chunks of two time
  positions each; a column of a chunk is a column of the whole product, so the masked outputs it maximises are the
  specification's `cand 0 … cand 15`, met in that order.
-/
import proofs.«154384_g2000609228658301_pallasbulk_245_2_alg».proof.Proof.Gen.KernelIdeal.Frame
import proofs.«154384_g2000609228658301_pallasbulk_245_2_alg».proof.Proof.Spec
import proofs.«154384_g2000609228658301_pallasbulk_245_2_alg».proof.Proof.LibIndexReads

noncomputable section

open scoped BigOperators

namespace Cert.KernelIdeal.Bridge

open Idealize.ShloMosaic Idealize.ShloMosaic.ValueIdx Cert.KernelIdeal Cert.KernelIdeal.Gen Cert.IndexReads

/-- Row `r` of a vocabulary block. -/
abbrev row (v0 : FVec Ideal S512x384 .bf16) (r : Fin 512) : Fin 384 → EReal := fun k => v0 (ix2 r k)

/-- One column of one chunk product, cut out of the chunk: column `c0 + o + j` of the whole product. -/
theorem chunk_apply (v0 : FVec Ideal S512x384 .bf16) (x1 : Vec Ideal S384x14464 .bf16) (c0 o : Nat)
    (inb : ∀ a, (![0, c0] : Fin 2 → Nat) a + S384x1792.size a ≤ S384x14464.size a)
    (hsl : S512x1792.Slices ![0, o] S512x896) (r : Fin 512) (j : Fin 896) (ho : o + 896 ≤ 1792) (hc : c0 + 1792 ≤ 14464) :
    extractStridedSlice S512x896 ![0, o]
        (matmul (F := Ideal) (φ₁ := .bf16) (φ₂ := .bf16) dot_S512x384_S384x1792_S512x1792_1_0_0_1_n_n none v0
          (View.ld (Val := Elt Ideal) (e' := .bf16) x1 (Rect.unit (s := S384x14464) ![0, c0] S384x1792.size inb)) (constant (F := Ideal) S512x1792 .f32 0x00000000#32)) hsl (ix2 r j)
      = Cert.Spec.conv (row v0 r) x1 (c0 + o + j.val) := by
  refine (extractStridedSlice_apply _ _ hsl (ix2 r j) (ix2 r ⟨o + j.val, by omega⟩) (fun a => ?_)).trans ?_
  · match a with
    | ⟨0, _⟩ => exact (Nat.zero_add _).symm
    | ⟨1, _⟩ => rfl
  refine (matmul_rc_apply dot_S512x384_S384x1792_S512x1792_1_0_0_1_n_n rfl rfl rfl rfl rfl rfl none v0 _ r ⟨o + j.val, by omega⟩).trans ?_
  unfold Cert.Spec.conv
  refine Finset.sum_congr rfl fun k _ => ?_
  refine congrArg (v0 (ix2 r k) * ·) ?_
  unfold Cert.Spec.wcol
  rw [dif_pos (show c0 + o + j.val < 14464 by omega)]
  refine ld_unit_apply x1 _ _ inb _ _ (fun a => ?_)
  match a with
  | ⟨0, _⟩ => exact (Nat.zero_add _).symm
  | ⟨1, _⟩ => exact Nat.add_assoc _ _ _

/-- Row `t` of the mask laid along every row of a block. -/
theorem maskrow_apply (v1 : FVec Ideal S16x896 .f32) (t : Nat) (hs : S16x896.Slices ![t, 0] S1x896)
    (hb : S1x896.Broadcasts S512x896) (r : Fin 512) (j : Fin 896) (ht : t < 16) :
    broadcastTo S512x896 (extractStridedSlice S1x896 ![t, 0] v1 hs) hb (ix2 r j) = Cert.Spec.mrow v1 t j := by
  refine (broadcastTo_apply _ hb (ix2 r j) (ix2 0 j) (fun a => ?_)).trans ?_
  · match a with
    | ⟨0, _⟩ => rfl
    | ⟨1, _⟩ => rfl
  refine (extractStridedSlice_apply _ v1 hs (ix2 0 j) (ix2 ⟨t, ht⟩ j) (fun a => ?_)).trans ?_
  · match a with
    | ⟨0, _⟩ => rfl
    | ⟨1, _⟩ => exact (Nat.zero_add _).symm
  unfold Cert.Spec.mrow
  rw [dif_pos ht]

/-- The masked convolution output of time position `t`, read off a chunk product: `c0` is the chunk's first column,
    `o` the time position's offset inside the chunk. -/
theorem cand_apply (v0 : FVec Ideal S512x384 .bf16) (x1 : Vec Ideal S384x14464 .bf16) (v1 : FVec Ideal S16x896 .f32)
    (c0 o t : Nat) (inb : ∀ a, (![0, c0] : Fin 2 → Nat) a + S384x1792.size a ≤ S384x14464.size a)
    (hsl : S512x1792.Slices ![0, o] S512x896) (hs : S16x896.Slices ![t, 0] S1x896) (hb : S1x896.Broadcasts S512x896)
    (r : Fin 512) (j : Fin 896) (ht : t < 16) (ho : o + 896 ≤ 1792) (hc : c0 + 1792 ≤ 14464) (hco : c0 + o = t * 896) :
    addf (F := Ideal) (φ := .f32)
        (extractStridedSlice S512x896 ![0, o]
          (matmul (F := Ideal) (φ₁ := .bf16) (φ₂ := .bf16) dot_S512x384_S384x1792_S512x1792_1_0_0_1_n_n none v0
            (View.ld (Val := Elt Ideal) (e' := .bf16) x1 (Rect.unit (s := S384x14464) ![0, c0] S384x1792.size inb))
            (constant (F := Ideal) S512x1792 .f32 0x00000000#32)) hsl)
        (broadcastTo S512x896 (extractStridedSlice S1x896 ![t, 0] v1 hs) hb) (ix2 r j)
      = Cert.Spec.cand (row v0 r) x1 v1 t j := by
  refine (addf_apply _ _ _).trans ?_
  rw [chunk_apply v0 x1 c0 o inb hsl r j ho hc, maskrow_apply v1 t hs hb r j ht, hco]
  rfl

/-- The first three chunks: the running maximum over time positions 0 … 5. -/
theorem pay2_apply (v0 : FVec Ideal S512x384 .bf16) (x1 : Vec Ideal S384x14464 .bf16) (v1 : FVec Ideal S16x896 .f32)
    (r : Fin 512) (j : Fin 896) :
    k0_pay2 (F := Ideal) v0 v1 (View.ld x1 r0_2) (View.ld x1 r0_3) (View.ld x1 r0_4) (ix2 r j)
      = Cert.Spec.pool (row v0 r) x1 v1 j 5 := by
  unfold k0_pay2
  simp only [Cert.Spec.pool]
  refine congrArg₂ max (congrArg₂ max (congrArg₂ max (congrArg₂ max (congrArg₂ max ?_ ?_) ?_) ?_) ?_) ?_
  · exact cand_apply v0 x1 v1 0 0 0 _ _ _ _ r j (by decide) (by decide) (by decide) rfl
  · exact cand_apply v0 x1 v1 0 896 1 _ _ _ _ r j (by decide) (by decide) (by decide) rfl
  · exact cand_apply v0 x1 v1 1792 0 2 _ _ _ _ r j (by decide) (by decide) (by decide) rfl
  · exact cand_apply v0 x1 v1 1792 896 3 _ _ _ _ r j (by decide) (by decide) (by decide) rfl
  · exact cand_apply v0 x1 v1 3584 0 4 _ _ _ _ r j (by decide) (by decide) (by decide) rfl
  · exact cand_apply v0 x1 v1 3584 896 5 _ _ _ _ r j (by decide) (by decide) (by decide) rfl

/-- Time position 6, the first of the fourth chunk. -/
theorem pay4_apply (v0 : FVec Ideal S512x384 .bf16) (x1 : Vec Ideal S384x14464 .bf16) (v1 : FVec Ideal S16x896 .f32)
    (r : Fin 512) (j : Fin 896) :
    k0_pay4 (F := Ideal) v0 v1 (View.ld x1 r0_5) (ix2 r j) = Cert.Spec.cand (row v0 r) x1 v1 6 j := by
  unfold k0_pay4 k0_pay3
  exact cand_apply v0 x1 v1 5376 0 6 _ _ _ _ r j (by decide) (by decide) (by decide) rfl

/-- The running maximum carried on over time positions 6 … 13: the rest of the fourth chunk and the next three. -/
theorem pay5_apply (v0 : FVec Ideal S512x384 .bf16) (x1 : Vec Ideal S384x14464 .bf16) (v1 : FVec Ideal S16x896 .f32)
    (v36 v42 : FVec Ideal S512x896 .f32) (r : Fin 512) (j : Fin 896)
    (h36 : v36 (ix2 r j) = Cert.Spec.pool (row v0 r) x1 v1 j 5) (h42 : v42 (ix2 r j) = Cert.Spec.cand (row v0 r) x1 v1 6 j) :
    k0_pay5 (F := Ideal) v0 v1 v36 (k0_pay3 v0 (View.ld x1 r0_5)) v42 (View.ld x1 r0_6) (View.ld x1 r0_7) (View.ld x1 r0_8) (ix2 r j)
      = Cert.Spec.pool (row v0 r) x1 v1 j 13 := by
  unfold k0_pay5 k0_pay3
  simp only [Cert.Spec.pool]
  refine congrArg₂ max (congrArg₂ max (congrArg₂ max (congrArg₂ max (congrArg₂ max (congrArg₂ max (congrArg₂ max
    (congrArg₂ max ?_ h42) ?_) ?_) ?_) ?_) ?_) ?_) ?_
  · simpa only [Cert.Spec.pool] using h36
  · exact cand_apply v0 x1 v1 5376 896 7 _ _ _ _ r j (by decide) (by decide) (by decide) rfl
  · exact cand_apply v0 x1 v1 7168 0 8 _ _ _ _ r j (by decide) (by decide) (by decide) rfl
  · exact cand_apply v0 x1 v1 7168 896 9 _ _ _ _ r j (by decide) (by decide) (by decide) rfl
  · exact cand_apply v0 x1 v1 8960 0 10 _ _ _ _ r j (by decide) (by decide) (by decide) rfl
  · exact cand_apply v0 x1 v1 8960 896 11 _ _ _ _ r j (by decide) (by decide) (by decide) rfl
  · exact cand_apply v0 x1 v1 10752 0 12 _ _ _ _ r j (by decide) (by decide) (by decide) rfl
  · exact cand_apply v0 x1 v1 10752 896 13 _ _ _ _ r j (by decide) (by decide) (by decide) rfl

/-- Time position 14, the first of the last chunk. -/
theorem pay7_apply (v0 : FVec Ideal S512x384 .bf16) (x1 : Vec Ideal S384x14464 .bf16) (v1 : FVec Ideal S16x896 .f32)
    (r : Fin 512) (j : Fin 896) :
    k0_pay7 (F := Ideal) v0 v1 (View.ld x1 r0_9) (ix2 r j) = Cert.Spec.cand (row v0 r) x1 v1 14 j := by
  unfold k0_pay7 k0_pay6
  exact cand_apply v0 x1 v1 12544 0 14 _ _ _ _ r j (by decide) (by decide) (by decide) rfl

/-- The last payload: time position 15 closes the maximum; then the hidden activations of row `r` and the scores of
    every query against it. -/
theorem pay1_apply (v0 : FVec Ideal S512x384 .bf16) (x1 : Vec Ideal S384x14464 .bf16) (v1 : FVec Ideal S16x896 .f32)
    (v84 v90 : FVec Ideal S512x896 .f32) (v101 : FVec Ideal S896x128 .bf16) (v104 : FVec Ideal S1x128 .f32)
    (v108 : FVec Ideal S512x128 .f32) (b r : Fin 512)
    (h84 : ∀ j, v84 (ix2 r j) = Cert.Spec.pool (row v0 r) x1 v1 j 13)
    (h90 : ∀ j, v90 (ix2 r j) = Cert.Spec.cand (row v0 r) x1 v1 14 j) :
    k0_pay1 (F := Ideal) v0 v1 v84 (k0_pay6 v0 (View.ld x1 r0_9)) v90 (View.ld x1 r0_10) v101 v104 v108 (ix2 b r)
      = Cert.Spec.score x1 v1 v101 v104 v108 (row v0 r) b := by
  unfold k0_pay1 k0_pay6
  refine (matmul_rr_apply dot_S512x128_S512x128_S512x512_1_1_0_0_n_n rfl rfl rfl rfl rfl rfl none v108 _ b r).trans ?_
  unfold Cert.Spec.score
  refine Finset.sum_congr rfl fun h _ => congrArg (v108 (ix2 b h) * ·) ?_
  unfold Cert.Spec.hidden
  refine congrArg Ideal.tanh (congrArg₂ (· + ·) (congrArg₂ (· + ·) ?_ ?_) ?_)
  · refine (matmul_rc_apply dot_S512x896_S896x128_S512x128_1_0_0_1_n_n rfl rfl rfl rfl rfl rfl none _ v101 r h).trans ?_
    refine Finset.sum_congr rfl fun j _ => congrArg (· * v101 (ix2 j h)) (congrArg Ideal.tanh ?_)
    simp only [Cert.Spec.pool]
    refine congrArg₂ max (congrArg₂ max ?_ (h90 j)) ?_
    · simpa only [Cert.Spec.pool] using h84 j
    · exact cand_apply v0 x1 v1 12544 896 15 _ _ _ _ r j (by decide) (by decide) (by decide) rfl
  · refine (matmul_rc_apply dot_S512x384_S384x128_S512x128_1_0_0_1_n_n rfl rfl rfl rfl rfl rfl none v0 _ r h).trans ?_
    unfold Cert.Spec.conv
    refine Finset.sum_congr rfl fun k _ => congrArg (v0 (ix2 r k) * ·) ?_
    unfold Cert.Spec.wcol
    rw [dif_pos (show 14336 + h.val < 14464 by omega)]
    refine ld_unit_apply x1 _ _ _ _ _ (fun a => ?_)
    match a with
    | ⟨0, _⟩ => exact (Nat.zero_add _).symm
    | ⟨1, _⟩ => rfl
  · refine broadcastTo_apply v104 _ (ix2 r h) (ix2 0 h) (fun a => ?_)
    match a with
    | ⟨0, _⟩ => rfl
    | ⟨1, _⟩ => rfl

theorem hz : (![0, 0] : Fin 2 → Nat) = fun _ => 0 := by
  funext a; match a with | ⟨0, _⟩ => rfl | ⟨1, _⟩ => rfl

/-- Entry `[b, r]` of the block the body leaves: the score of query `b` against row `r` of the vocabulary block. -/
theorem out_apply (x0 : Vec Ideal S512x384 .bf16) (x1 : Vec Ideal S384x14464 .bf16) (x2 : Vec Ideal S16x896 .f32)
    (x3 : Vec Ideal S896x128 .bf16) (x4 : Vec Ideal S1x128 .f32) (x5 : Vec Ideal S512x128 .f32) (b r : Fin 512) :
    out0_6 (F := Ideal) x0 x1 x2 x3 x4 x5 (ix2 b r) = Cert.Spec.score x1 x2 x3 x4 x5 (fun k => x0 (ix2 r k)) b := by
  unfold out0_6
  rw [View.canon_unit_zero hz]
  simp only [View.ld_unit_zero (S := S512x384) hz, View.ld_unit_zero (S := S16x896) hz, View.ld_unit_zero (S := S896x128) hz,
    View.ld_unit_zero (S := S1x128) hz, View.ld_unit_zero (S := S512x128) hz]
  exact pay1_apply x0 x1 x2 _ _ x3 x4 x5 b r
    (fun j => pay5_apply x0 x1 x2 _ _ r j (pay2_apply x0 x1 x2 r j) (pay4_apply x0 x1 x2 r j))
    (fun j => pay7_apply x0 x1 x2 r j)

end Cert.KernelIdeal.Bridge

end
-- ==== Proof.KArr.lean ====
/-
  From the blocks to the array, then the slice after the region.

  The grid has 79 points. At point `t` the body reads rows `512 t … 512 t + 511` of the vocabulary slab (block `(t, 0)`
  of its array), the other five operands whole, and writes columns `512 t … 512 t + 511` of the padded score matrix
  (block `(0, t)`). Entry `[b, r]` of the block written is the score of query `b` against row `r` of the slab's block,
  that is entry `[b, 512 t + r]` of `Cert.Spec.scores` of the argument arrays. The 79 column blocks tile the padded
  matrix (column `v` lies in block `v / 512`), so after the region the array is `Cert.Spec.scores` of the arguments;
  the slice that follows keeps columns `0 … 39999`, which is `Cert.Spec.result`.
-/
import proofs.«154384_g2000609228658301_pallasbulk_245_2_alg».proof.Proof.KPay
import Idealize.ShloMosaic.Lib.Pipeline.Value
import Idealize.ShloMosaic.Lib.Pipeline.Frame
import Idealize.ShloMosaic.Lib.Pipeline.FrameSuffix
import Idealize.ShloMosaic.Lib.Tactic

noncomputable section

open scoped BigOperators

namespace Cert.KernelIdeal.Bridge

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The printed index maps, decided over the grid: the slab's block index is `(t, 0)`, the output's `(0, t)`, every
    other window's `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- The slab's block at point `t` is rows `512 t … 512 t + 511` of the slab. -/
theorem slab_block_apply (c : Dev nD) (t : Fin cfg0.N) (r : Fin 512) (k : Fin 384) (v : Fin 40448)
    (hv : v.val = 512 * t.val + r.val) :
    (iblk m c 0 t : Vec Ideal S512x384 .bf16) (ix2 r k) = (V m c main_arg0 : Cert.Spec.Arr 40448 384) (ix2 v k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * r.val = v.val; omega
  | ⟨1, _⟩ => show win0_0.index t (1 : Fin 2) * 384 + 1 * k.val = k.val; omega

/-- A window whose block is its whole array, at block index `(0, 0)`: the block read is the array. The packed weights; -/
theorem wc_block_eq (c : Dev nD) (t : Fin cfg0.N) :
    (iblk m c 1 t : Vec Ideal S384x14464 .bf16) = (V m c main_arg1 : Cert.Spec.Arr 384 14464) := by
  obtain ⟨-, -, e0, e1, -⟩ := idx_facts t
  funext j
  unfold iblk
  rw [View.read_apply]
  show V m c main_arg1 _ = V m c main_arg1 _
  congr 1
  funext a
  apply Fin.ext
  match a with
  | ⟨0, _⟩ => show win0_1.index t (0 : Fin 2) * 384 + 1 * (j 0).val = (j 0).val; omega
  | ⟨1, _⟩ => show win0_1.index t (1 : Fin 2) * 14464 + 1 * (j 1).val = (j 1).val; omega

/-- the time mask; -/
theorem mask_block_eq (c : Dev nD) (t : Fin cfg0.N) :
    (iblk m c 2 t : Vec Ideal S16x896 _) = (V m c main_arg2 : Cert.Spec.Arr 16 896) := by
  obtain ⟨-, -, -, -, e0, e1, -⟩ := idx_facts t
  funext j
  unfold iblk
  rw [View.read_apply]
  show V m c main_arg2 _ = V m c main_arg2 _
  congr 1
  funext a
  apply Fin.ext
  match a with
  | ⟨0, _⟩ => show win0_2.index t (0 : Fin 2) * 16 + 1 * (j 0).val = (j 0).val; omega
  | ⟨1, _⟩ => show win0_2.index t (1 : Fin 2) * 896 + 1 * (j 1).val = (j 1).val; omega

/-- the tiled projection; -/
theorem wa_block_eq (c : Dev nD) (t : Fin cfg0.N) :
    (iblk m c 3 t : Vec Ideal S896x128 _) = (V m c main_arg3 : Cert.Spec.Arr 896 128) := by
  obtain ⟨-, -, -, -, -, -, e0, e1, -⟩ := idx_facts t
  funext j
  unfold iblk
  rw [View.read_apply]
  show V m c main_arg3 _ = V m c main_arg3 _
  congr 1
  funext a
  apply Fin.ext
  match a with
  | ⟨0, _⟩ => show win0_3.index t (0 : Fin 2) * 896 + 1 * (j 0).val = (j 0).val; omega
  | ⟨1, _⟩ => show win0_3.index t (1 : Fin 2) * 128 + 1 * (j 1).val = (j 1).val; omega

/-- the bias; -/
theorem bias_block_eq (c : Dev nD) (t : Fin cfg0.N) :
    (iblk m c 4 t : Vec Ideal S1x128 _) = (V m c main_arg4 : Cert.Spec.Arr 1 128) := by
  obtain ⟨-, -, -, -, -, -, -, -, e0, e1, -⟩ := idx_facts t
  funext j
  unfold iblk
  rw [View.read_apply]
  show V m c main_arg4 _ = V m c main_arg4 _
  congr 1
  funext a
  apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- the queries. -/
theorem x_block_eq (c : Dev nD) (t : Fin cfg0.N) :
    (iblk m c 5 t : Vec Ideal S512x128 _) = (V m c main_arg5 : Cert.Spec.Arr 512 128) := by
  obtain ⟨-, -, -, -, -, -, -, -, -, -, e0, e1, -⟩ := idx_facts t
  funext j
  unfold iblk
  rw [View.read_apply]
  show V m c main_arg5 _ = V m c main_arg5 _
  congr 1
  funext a
  apply Fin.ext
  match a with
  | ⟨0, _⟩ => show win0_5.index t (0 : Fin 2) * 512 + 1 * (j 0).val = (j 0).val; omega
  | ⟨1, _⟩ => show win0_5.index t (1 : Fin 2) * 128 + 1 * (j 1).val = (j 1).val; omega

/-- Entry `[b, r]` of what point `t` leaves in the output's buffer is entry `[b, 512 t + r]` of the padded score matrix
    of the argument arrays. -/
theorem block_entry (c : Dev nD) (t : Fin cfg0.N) (b r : Fin 512) (v : Fin 40448) (hv : v.val = 512 * t.val + r.val) :
    out0_6 (F := Ideal) (iblk m c 0 t) (iblk m c 1 t) (iblk m c 2 t) (iblk m c 3 t) (iblk m c 4 t) (iblk m c 5 t) (ix2 b r)
      = Cert.Spec.scores (V m c main_arg0) (V m c main_arg1) (V m c main_arg2) (V m c main_arg3) (V m c main_arg4)
          (V m c main_arg5) (ix2 b v) := by
  refine (out_apply (iblk m c 0 t) (iblk m c 1 t) (iblk m c 2 t) (iblk m c 3 t) (iblk m c 4 t) (iblk m c 5 t) b r).trans ?_
  rw [wc_block_eq m c t, mask_block_eq m c t, wa_block_eq m c t, bias_block_eq m c t, x_block_eq m c t]
  show Cert.Spec.score _ _ _ _ _ (fun k => (iblk m c 0 t : Vec Ideal S512x384 .bf16) (ix2 r k)) b
    = Cert.Spec.score _ _ _ _ _ (fun k => (V m c main_arg0 : Cert.Spec.Arr 40448 384) (ix2 v k)) b
  congr 1
  funext k
  exact slab_block_apply m c t r k v hv

/-- WHAT POINT `t` WRITES BACK is block `t` of the padded score matrix of the argument arrays as the region finds them. -/
theorem flushed_eq (c : Dev nD) (t : Fin cfg0.N) :
    (dats m 0 c).flushed 6 t = ((cfg0.win 6).blk t).view.read (Elt Ideal)
      (Cert.Spec.scores (V m c main_arg0) (V m c main_arg1) (V m c main_arg2) (V m c main_arg3) (V m c main_arg4) (V m c main_arg5)) := by
  show (cfg0.win 6).cut (grid0.coords t) ((dats m 0 c).after 6 t) = _
  rw [after0_6]
  obtain ⟨-, -, -, -, -, -, -, -, -, -, -, -, e0, e1⟩ := idx_facts t
  funext j
  have hj1 : ((j 1 : Fin 512) : Nat) < 512 := (j 1).isLt
  have ht : t.val < 79 := t.isLt
  have key := block_entry m c t (j 0) (j 1) ⟨512 * t.val + (j 1).val, by omega⟩ rfl
  rw [View.read_apply]
  show out0_6 (F := Ideal) (iblk m c 0 t) (iblk m c 1 t) (iblk m c 2 t) (iblk m c 3 t) (iblk m c 4 t) (iblk m c 5 t) j = _
  refine ((congrArg (out0_6 (F := Ideal) (iblk m c 0 t) (iblk m c 1 t) (iblk m c 2 t) (iblk m c 3 t) (iblk m c 4 t) (iblk m c 5 t)) (eq_ix2 j)).trans key).trans ?_
  congr 1
  funext a
  apply Fin.ext
  match a with
  | ⟨0, _⟩ => show (j 0).val = win0_6.index t (0 : Fin 2) * 512 + 1 * (j 0).val; omega
  | ⟨1, _⟩ => show 512 * t.val + (j 1).val = win0_6.index t (1 : Fin 2) * 512 + 1 * (j 1).val; omega

/-- An index of the array is in point `t`'s block iff each coordinate is in the block's range on its axis. -/
theorem mem_blk (t : Fin cfg0.N) (i : S512x40448.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v0).slice (win0_6.rect t)).set ↔ _
  rw [View.set_slice_whole, Rect.mem_set_unit]
  exact Iff.rfl

/-- Every index of the padded matrix is in some point's block: column `v` in the block of point `v / 512`. -/
theorem covered (i : S512x40448.Idx) :
    ∃ t : Fin cfg0.N, (cfg0.win 6).flush t = true ∧ i ∈ ((cfg0.win 6).blk t).view.set := by
  have hi0 : (i 0).val < 512 := (i 0).isLt
  have hi1 : (i 1).val < 40448 := (i 1).isLt
  have hN : cfg0.N = 79 := N_0
  refine ⟨⟨(i 1).val / 512, by rw [hN]; omega⟩, flush0_6 _, ?_⟩
  obtain ⟨-, -, -, -, -, -, -, -, -, -, -, -, e0, e1⟩ := idx_facts ⟨(i 1).val / 512, by rw [hN]; omega⟩
  rw [mem_blk]
  intro a
  match a with
  | ⟨0, _⟩ =>
    show win0_6.index _ (0 : Fin 2) * 512 ≤ (i 0).val ∧ (i 0).val < win0_6.index _ (0 : Fin 2) * 512 + 512
    rw [e0]; omega
  | ⟨1, _⟩ =>
    show win0_6.index _ (1 : Fin 2) * 512 ≤ (i 1).val ∧ (i 1).val < win0_6.index _ (1 : Fin 2) * 512 + 512
    rw [e1]; show (i 1).val / 512 * 512 ≤ (i 1).val ∧ (i 1).val < (i 1).val / 512 * 512 + 512; omega

/-- THE ARRAY after the run: the padded score matrix of the argument arrays. -/
theorem final (c : Dev nD) : (dats m 0 c).arrAt 6 cfg0.N
    = Cert.Spec.scores (V m c main_arg0) (V m c main_arg1) (V m c main_arg2) (V m c main_arg3) (V m c main_arg4) (V m c main_arg5) :=
  (dats m 0 c).arrAt_eq_of_cover 6 _ (fun t _ => flushed_eq m c t) covered

/-- The result buffer is no window's array: the region leaves it to the operation after it. -/
theorem v1_rest : main_v1 ∈ Pipeline.restRefs sig (cfgs 0).spec :=
  Pipeline.mem_restRefs_of main_v1 (by decide) (by decide)

/-- The slice after the region, of the padded score matrix, is the score matrix without the padding's columns. -/
theorem tail_eq (c : Dev nD) : Pipeline.afterTail₀ cfgs (dats m) 0 (V0 m) [hostOps1] c main_v1
    = Cert.Spec.result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = Cert.Spec.scores (V m c main_arg0) (V m c main_arg1) (V m c main_arg2) (V m c main_arg3) (V m c main_arg4) (V m c main_arg5) :=
    (Pipeline.withArrays_arr spec0 launch0.win.arr_inj c _ _ 6).trans (final m c)
  rw [hw]
  funext j
  have hj1 : (j 1).val < 40000 := idx2_lt1 j
  refine (extractStridedSlice_apply _ _ _ j (ix2 (j 0) ⟨(j 1).val, by omega⟩) (fun a => ?_)).trans ?_
  · match a with
    | ⟨0, _⟩ => show (j 0).val = 0 + (j 0).val; omega
    | ⟨1, _⟩ => show (j 1).val = 0 + (j 1).val; omega
  · rfl

/-- The run, read: the result buffer ends at `Cert.Spec.result` of the argument arrays, the arguments unchanged. -/
theorem run : θ_run defs (onTc (τ := τ) (main (F := Ideal))) ⟨m, fun _ => 0, ρ⟩ (fun r => ∀ c : Dev nD,
      r.2.mem ((c.tc : Thread nD τ).loc main_v1) = Cert.Spec.result (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Bridge
end
-- ==== Proof.RPay.lean ====
/-
  What the reference's body leaves in its output block, read at one entry: entry `[b, r]` of the block is the score
  of query `b` against row `r` of the vocabulary block. The body forms the big product whole and cuts the sixteen
  time positions' columns, and the word projection's, out of it; the masked outputs it maximises are the
  specification's `cand 0 … cand 15`, met in that order.
-/
import proofs.«154384_g2000609228658301_pallasbulk_245_2_alg».proof.Proof.Gen.ReferenceIdeal.Frame
import proofs.«154384_g2000609228658301_pallasbulk_245_2_alg».proof.Proof.Spec
import proofs.«154384_g2000609228658301_pallasbulk_245_2_alg».proof.Proof.LibIndexReads

noncomputable section

open scoped BigOperators

namespace Cert.ReferenceIdeal.Bridge

open Idealize.ShloMosaic Idealize.ShloMosaic.ValueIdx Cert.ReferenceIdeal Cert.ReferenceIdeal.Gen Cert.IndexReads

/-- Row `r` of a vocabulary block. -/
abbrev row (v0 : FVec Ideal S256x384 .bf16) (r : Fin 256) : Fin 384 → EReal := fun k => v0 (ix2 r k)

/-- Column `n` of the big product, at row `r`. -/
theorem big_apply (v0 : FVec Ideal S256x384 .bf16) (v1 : FVec Ideal S384x14464 .bf16) (r : Fin 256) (n : Fin 14464) :
    k0_pay2 (F := Ideal) v0 v1 (ix2 r n) = Cert.Spec.conv (row v0 r) v1 n.val := by
  unfold k0_pay2
  refine (matmul_rc_apply dot_S256x384_S384x14464_S256x14464_1_0_0_1_n_n rfl rfl rfl rfl rfl rfl none v0 v1 r n).trans ?_
  unfold Cert.Spec.conv
  refine Finset.sum_congr rfl fun k _ => congrArg (v0 (ix2 r k) * ·) ?_
  unfold Cert.Spec.wcol
  rw [dif_pos n.isLt]

/-- Row `t` of the mask laid along every row of a block. -/
theorem maskrow_apply (v3 : FVec Ideal S16x896 .f32) (t : Nat) (hs : S16x896.Slices ![t, 0] S1x896)
    (hb : S1x896.Broadcasts S256x896) (r : Fin 256) (j : Fin 896) (ht : t < 16) :
    broadcastTo S256x896 (extractStridedSlice S1x896 ![t, 0] v3 hs) hb (ix2 r j) = Cert.Spec.mrow v3 t j := by
  refine (broadcastTo_apply _ hb (ix2 r j) (ix2 0 j) (fun a => ?_)).trans ?_
  · match a with
    | ⟨0, _⟩ => rfl
    | ⟨1, _⟩ => rfl
  refine (extractStridedSlice_apply _ v3 hs (ix2 0 j) (ix2 ⟨t, ht⟩ j) (fun a => ?_)).trans ?_
  · match a with
    | ⟨0, _⟩ => rfl
    | ⟨1, _⟩ => exact (Nat.zero_add _).symm
  unfold Cert.Spec.mrow
  rw [dif_pos ht]

/-- The masked convolution output of time position `t`: its 896 columns start at column `o = 896·t` of the big product. -/
theorem cand_apply (v0 : FVec Ideal S256x384 .bf16) (v1 : FVec Ideal S384x14464 .bf16) (v3 : FVec Ideal S16x896 .f32)
    (o t : Nat) (hsl : S256x14464.Slices ![0, o] S256x896) (hs : S16x896.Slices ![t, 0] S1x896)
    (hb : S1x896.Broadcasts S256x896) (r : Fin 256) (j : Fin 896) (ht : t < 16) (ho : o = t * 896) :
    addf (F := Ideal) (φ := .f32) (extractStridedSlice S256x896 ![0, o] (k0_pay2 (F := Ideal) v0 v1) hsl)
        (broadcastTo S256x896 (extractStridedSlice S1x896 ![t, 0] v3 hs) hb) (ix2 r j)
      = Cert.Spec.cand (row v0 r) v1 v3 t j := by
  refine (addf_apply _ _ _).trans ?_
  have hlt : o + j.val < 14464 := by have := j.isLt; omega
  rw [maskrow_apply v3 t hs hb r j ht]
  refine congrArg (· + _) ?_
  refine (extractStridedSlice_apply _ _ hsl (ix2 r j) (ix2 r ⟨o + j.val, hlt⟩) (fun a => ?_)).trans ?_
  · match a with
    | ⟨0, _⟩ => exact (Nat.zero_add _).symm
    | ⟨1, _⟩ => rfl
  refine (big_apply v0 v1 r ⟨o + j.val, hlt⟩).trans ?_
  show Cert.Spec.conv (row v0 r) v1 (o + j.val) = _
  rw [ho]

/-- The running maximum over time positions 0 … 8. -/
theorem pay3_apply (v0 : FVec Ideal S256x384 .bf16) (v1 : FVec Ideal S384x14464 .bf16) (v3 : FVec Ideal S16x896 .f32)
    (r : Fin 256) (j : Fin 896) :
    k0_pay3 (F := Ideal) v0 v1 v3 (ix2 r j) = Cert.Spec.pool (row v0 r) v1 v3 j 8 := by
  unfold k0_pay3
  simp only [Cert.Spec.pool]
  refine congrArg₂ max (congrArg₂ max (congrArg₂ max (congrArg₂ max (congrArg₂ max (congrArg₂ max (congrArg₂ max
    (congrArg₂ max ?_ ?_) ?_) ?_) ?_) ?_) ?_) ?_) ?_
  · exact cand_apply v0 v1 v3 0 0 _ _ _ r j (by decide) rfl
  · exact cand_apply v0 v1 v3 896 1 _ _ _ r j (by decide) rfl
  · exact cand_apply v0 v1 v3 1792 2 _ _ _ r j (by decide) rfl
  · exact cand_apply v0 v1 v3 2688 3 _ _ _ r j (by decide) rfl
  · exact cand_apply v0 v1 v3 3584 4 _ _ _ r j (by decide) rfl
  · exact cand_apply v0 v1 v3 4480 5 _ _ _ r j (by decide) rfl
  · exact cand_apply v0 v1 v3 5376 6 _ _ _ r j (by decide) rfl
  · exact cand_apply v0 v1 v3 6272 7 _ _ _ r j (by decide) rfl
  · exact cand_apply v0 v1 v3 7168 8 _ _ _ r j (by decide) rfl

/-- Time position 9. -/
theorem pay4_apply (v0 : FVec Ideal S256x384 .bf16) (v1 : FVec Ideal S384x14464 .bf16) (v3 : FVec Ideal S16x896 .f32)
    (r : Fin 256) (j : Fin 896) :
    k0_pay4 (F := Ideal) v0 v1 v3 (ix2 r j) = Cert.Spec.cand (row v0 r) v1 v3 9 j := by
  unfold k0_pay4
  exact cand_apply v0 v1 v3 8064 9 _ _ _ r j (by decide) rfl

/-- The last payload: time positions 10 … 15 close the maximum; then the hidden activations of row `r` and the scores
    of every query against it. -/
theorem pay1_apply (v0 : FVec Ideal S256x384 .bf16) (v1 : FVec Ideal S384x14464 .bf16) (v3 : FVec Ideal S16x896 .f32)
    (v47 v51 : FVec Ideal S256x896 .f32) (v86 : FVec Ideal S896x128 .bf16) (v89 : FVec Ideal S1x128 .f32)
    (v93 : FVec Ideal S512x128 .f32) (b : Fin 512) (r : Fin 256)
    (h47 : ∀ j, v47 (ix2 r j) = Cert.Spec.pool (row v0 r) v1 v3 j 8)
    (h51 : ∀ j, v51 (ix2 r j) = Cert.Spec.cand (row v0 r) v1 v3 9 j) :
    k0_pay1 (F := Ideal) (k0_pay2 v0 v1) v3 v47 v51 v86 v89 v93 (ix2 b r)
      = Cert.Spec.score v1 v3 v86 v89 v93 (row v0 r) b := by
  unfold k0_pay1
  rw [shapeCast_self]
  refine (matmul_rr_apply dot_S512x128_S256x128_S512x256_1_1_0_0_n_n rfl rfl rfl rfl rfl rfl none v93 _ b r).trans ?_
  unfold Cert.Spec.score
  refine Finset.sum_congr rfl fun h _ => congrArg (v93 (ix2 b h) * ·) ?_
  unfold Cert.Spec.hidden
  refine congrArg Ideal.tanh (congrArg₂ (· + ·) (congrArg₂ (· + ·) ?_ ?_) ?_)
  · refine (matmul_rc_apply dot_S256x896_S896x128_S256x128_1_0_0_1_n_n rfl rfl rfl rfl rfl rfl none _ v86 r h).trans ?_
    refine Finset.sum_congr rfl fun j _ => congrArg (· * v86 (ix2 j h)) (congrArg Ideal.tanh ?_)
    simp only [Cert.Spec.pool]
    refine congrArg₂ max (congrArg₂ max (congrArg₂ max (congrArg₂ max (congrArg₂ max (congrArg₂ max
      (congrArg₂ max ?_ (h51 j)) ?_) ?_) ?_) ?_) ?_) ?_
    · simpa only [Cert.Spec.pool] using h47 j
    · exact cand_apply v0 v1 v3 8960 10 _ _ _ r j (by decide) rfl
    · exact cand_apply v0 v1 v3 9856 11 _ _ _ r j (by decide) rfl
    · exact cand_apply v0 v1 v3 10752 12 _ _ _ r j (by decide) rfl
    · exact cand_apply v0 v1 v3 11648 13 _ _ _ r j (by decide) rfl
    · exact cand_apply v0 v1 v3 12544 14 _ _ _ r j (by decide) rfl
    · exact cand_apply v0 v1 v3 13440 15 _ _ _ r j (by decide) rfl
  · have hlt : 14336 + h.val < 14464 := by have := h.isLt; omega
    refine (extractStridedSlice_apply _ _ _ (ix2 r h) (ix2 r ⟨14336 + h.val, hlt⟩) (fun a => ?_)).trans ?_
    · match a with
      | ⟨0, _⟩ => exact (Nat.zero_add _).symm
      | ⟨1, _⟩ => rfl
    exact big_apply v0 v1 r ⟨14336 + h.val, hlt⟩
  · refine broadcastTo_apply v89 _ (ix2 r h) (ix2 0 h) (fun a => ?_)
    match a with
    | ⟨0, _⟩ => rfl
    | ⟨1, _⟩ => rfl

theorem hz : (![0, 0] : Fin 2 → Nat) = fun _ => 0 := by
  funext a; match a with | ⟨0, _⟩ => rfl | ⟨1, _⟩ => rfl

/-- Entry `[b, r]` of the block the body leaves: the score of query `b` against row `r` of the vocabulary block. -/
theorem out_apply (x0 : Vec Ideal S256x384 .bf16) (x1 : Vec Ideal S384x14464 .bf16) (x2 : Vec Ideal S16x896 .f32)
    (x3 : Vec Ideal S896x128 .bf16) (x4 : Vec Ideal S1x128 .f32) (x5 : Vec Ideal S512x128 .f32) (b : Fin 512) (r : Fin 256) :
    out0_6 (F := Ideal) x0 x1 x2 x3 x4 x5 (ix2 b r) = Cert.Spec.score x1 x2 x3 x4 x5 (fun k => x0 (ix2 r k)) b := by
  unfold out0_6
  rw [View.canon_unit_zero hz]
  simp only [View.ld_unit_zero (S := S256x384) hz, View.ld_unit_zero (S := S384x14464) hz, View.ld_unit_zero (S := S16x896) hz,
    View.ld_unit_zero (S := S896x128) hz, View.ld_unit_zero (S := S1x128) hz, View.ld_unit_zero (S := S512x128) hz]
  exact pay1_apply x0 x1 x2 _ _ x3 x4 x5 b r (fun j => pay3_apply x0 x1 x2 r j) (fun j => pay4_apply x0 x1 x2 r j)

end Cert.ReferenceIdeal.Bridge

end
-- ==== Proof.XPad.lean ====
import proofs.«154384_g2000609228658301_pallasbulk_245_2_alg».proof.ReferenceIdeal
import Idealize.ShloMosaic.PureOps.ShapeOps
import Idealize.ShloMosaic.PureOps.Dims

/-!
# A scatter of a whole-operand window at the empty index is the update

The reference builds its query operand as a block of zeros into which the argument is written at
offset `(0, 0)`, the window being the whole block. The write is a scatter with an empty index
vector, both update axes window axes, no inserted axis: update index `j` lands at operand index
`j`, so the result is the update itself.
-/

namespace Cert.ReferenceIdeal.XPad

open Idealize.ShloMosaic

/-- A fold, over a list `L` of flat positions, of the step that overwrites the entry at flat
    position `n` by the update's entry there: it overwrites exactly the entries whose flat position
    is in `L`, and leaves the others as the accumulator had them. -/
theorem foldl_set_eq {s : Shape} {α : Type} (u : s.Idx → α)
    (step : (s.Idx → α) → Fin s.numel → s.Idx → α)
    (hstep : ∀ r n, step r n = fun i' => if i' = s.rowMajor.symm n then u (s.rowMajor.symm n) else r i')
    (L : List (Fin s.numel)) (r : s.Idx → α) :
    L.foldl step r = fun i' => if s.rowMajor i' ∈ L then u i' else r i' := by
  induction L generalizing r with
  | nil => funext i'; simp
  | cons n L ih =>
    rw [List.foldl_cons, ih, hstep]
    funext i'
    simp only [List.mem_cons]
    by_cases hL : s.rowMajor i' ∈ L
    · simp [hL]
    · by_cases hn : i' = s.rowMajor.symm n
      · subst hn; simp
      · have hn' : s.rowMajor i' ≠ n := fun e => hn (by rw [← e]; simp)
        simp [hL, hn, hn']

/-- **A scatter that writes every update element at its own index returns the update.** When
    the operand and the update have one shape and every update index `j` lands at operand index
    `j` (start `0` and window coordinate `j a` on every axis), the scatter whose body returns
    the update's element overwrites every element of the operand, whatever the operand was. -/
theorem scatter_eq_update {s si : Shape} {α : Type} {w : Nat} (d : ScatterDims s si s)
    (idx : IVec si w) (h : ∀ j : s.Idx, d.resultIdx? j idx = some j) (z u : s.Idx → α) :
    Host.scatter d (fun _ b => b) z idx u = u := by
  unfold Host.scatter
  rw [foldl_set_eq u _ (fun r n => by simp only [h])]
  funext i'
  simp [List.mem_finRange]

section
variable [Facts₀]

/-- At the empty index vector, with both update axes window axes and no inserted axis, the
    start is `0` on both operand axes and the window coordinate of update index `j` on axis `a`
    is `j a`: update index `j` lands at operand index `j`. -/
theorem resultIdx_self {w : Nat} (idx : IVec S0 w) (j : S512x128.Idx) :
    scatter_S512x128_S0_S512x128_01_n_n_0.resultIdx? j idx = some j := by
  have hs : ∀ a, scatter_S512x128_S0_S512x128_01_n_n_0.start j idx a = 0 := by
    intro a
    unfold ScatterDims.start
    rw [dif_neg]
    simp [scatter_S512x128_S0_S512x128_01_n_n_0]
  have hw : ∀ a, scatter_S512x128_S0_S512x128_01_n_n_0.window j a = (j a).val := by
    intro a
    match a with
    | ⟨0, _⟩ => rfl
    | ⟨1, _⟩ => rfl
  unfold ScatterDims.resultIdx?
  rw [dif_pos (by intro a; rw [hs, hw]; have := (j a).isLt; omega)]
  congr 1
  funext a
  apply Fin.ext
  simp [hs, hw]

/-- The reference's query operand: the zeros block with the argument written over the whole of
    it is the argument. -/
theorem scatter_whole {α : Type} (z u : S512x128.Idx → α) (idx : IVec S0 32) :
    Host.scatter scatter_S512x128_S0_S512x128_01_n_n_0 (fun _ b => b) z idx u = u :=
  scatter_eq_update _ idx (resultIdx_self idx) z u

end

end Cert.ReferenceIdeal.XPad
-- ==== Proof.RArr.lean ====
/-
  From the blocks to the array, then the slice after the region: the reference.

  Before the region the queries are written over a block of zeros of their own shape, which leaves the queries
  (`xpad_eq`). The grid has 158 points. At point `t` the body reads rows `256 t … 256 t + 255` of the vocabulary slab
  (block `(t, 0)` of its array), the other five operands whole, and writes columns `256 t … 256 t + 255` of the padded
  score matrix (block `(0, t)`). Entry `[b, r]` of the block written is the score of query `b` against row `r` of the
  slab's block, that is entry `[b, 256 t + r]` of `Cert.Spec.scores` of the arrays the region finds. The 158 column blocks
  tile the padded matrix (column `v` lies in block `v / 256`), so after the region the array is `Cert.Spec.scores`; the
  slice that follows keeps columns `0 … 39999`, which is `Cert.Spec.result` of the arguments.
-/
import proofs.«154384_g2000609228658301_pallasbulk_245_2_alg».proof.Proof.RPay
import proofs.«154384_g2000609228658301_pallasbulk_245_2_alg».proof.Proof.XPad
import Idealize.ShloMosaic.Lib.Pipeline.Value
import Idealize.ShloMosaic.Lib.Pipeline.Frame
import Idealize.ShloMosaic.Lib.Pipeline.FrameSuffix
import Idealize.ShloMosaic.Lib.Tactic

noncomputable section

open scoped BigOperators

namespace Cert.ReferenceIdeal.Bridge

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-- The printed index maps, decided over the grid: the slab's block index is `(t, 0)`, the output's `(0, t)`, every
    other window's `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- The query operand the region finds: zeros of the queries' shape with the queries written over the whole of them,
    which is the queries as launched. -/
theorem xpad_eq (c : Dev nD) : V m c main_v1 = m ((c.tc : Thread nD τ).loc main_arg5) := by
  show StableHlo.after hostOps0 (fun b => m (c, b)) (Proc.devRef .tc main_v1) = _
  after_results
  exact Cert.ReferenceIdeal.XPad.scatter_whole _ _ _

/-- The slab's block at point `t` is rows `256 t … 256 t + 255` of the slab. -/
theorem slab_block_apply (c : Dev nD) (t : Fin cfg0.N) (r : Fin 256) (k : Fin 384) (v : Fin 40448)
    (hv : v.val = 256 * t.val + r.val) :
    (iblk m c 0 t : Vec Ideal S256x384 .bf16) (ix2 r k) = (V m c main_arg0 : Cert.Spec.Arr 40448 384) (ix2 v k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 256 + 1 * r.val = v.val; omega
  | ⟨1, _⟩ => show win0_0.index t (1 : Fin 2) * 384 + 1 * k.val = k.val; omega

/-- A window whose block is its whole array, at block index `(0, 0)`: the block read is the array. The packed weights; -/
theorem wc_block_eq (c : Dev nD) (t : Fin cfg0.N) :
    (iblk m c 1 t : Vec Ideal S384x14464 _) = (V m c main_arg1 : Cert.Spec.Arr 384 14464) := by
  obtain ⟨-, -, e0, e1, -⟩ := idx_facts t
  funext j
  unfold iblk
  rw [View.read_apply]
  show V m c main_arg1 _ = V m c main_arg1 _
  congr 1
  funext a
  apply Fin.ext
  match a with
  | ⟨0, _⟩ => show win0_1.index t (0 : Fin 2) * 384 + 1 * (j 0).val = (j 0).val; omega
  | ⟨1, _⟩ => show win0_1.index t (1 : Fin 2) * 14464 + 1 * (j 1).val = (j 1).val; omega

/-- the time mask; -/
theorem mask_block_eq (c : Dev nD) (t : Fin cfg0.N) :
    (iblk m c 2 t : Vec Ideal S16x896 _) = (V m c main_arg2 : Cert.Spec.Arr 16 896) := by
  obtain ⟨-, -, -, -, e0, e1, -⟩ := idx_facts t
  funext j
  unfold iblk
  rw [View.read_apply]
  show V m c main_arg2 _ = V m c main_arg2 _
  congr 1
  funext a
  apply Fin.ext
  match a with
  | ⟨0, _⟩ => show win0_2.index t (0 : Fin 2) * 16 + 1 * (j 0).val = (j 0).val; omega
  | ⟨1, _⟩ => show win0_2.index t (1 : Fin 2) * 896 + 1 * (j 1).val = (j 1).val; omega

/-- the tiled projection; -/
theorem wa_block_eq (c : Dev nD) (t : Fin cfg0.N) :
    (iblk m c 3 t : Vec Ideal S896x128 _) = (V m c main_arg3 : Cert.Spec.Arr 896 128) := by
  obtain ⟨-, -, -, -, -, -, e0, e1, -⟩ := idx_facts t
  funext j
  unfold iblk
  rw [View.read_apply]
  show V m c main_arg3 _ = V m c main_arg3 _
  congr 1
  funext a
  apply Fin.ext
  match a with
  | ⟨0, _⟩ => show win0_3.index t (0 : Fin 2) * 896 + 1 * (j 0).val = (j 0).val; omega
  | ⟨1, _⟩ => show win0_3.index t (1 : Fin 2) * 128 + 1 * (j 1).val = (j 1).val; omega

/-- the bias; -/
theorem bias_block_eq (c : Dev nD) (t : Fin cfg0.N) :
    (iblk m c 4 t : Vec Ideal S1x128 _) = (V m c main_arg4 : Cert.Spec.Arr 1 128) := by
  obtain ⟨-, -, -, -, -, -, -, -, e0, e1, -⟩ := idx_facts t
  funext j
  unfold iblk
  rw [View.read_apply]
  show V m c main_arg4 _ = V m c main_arg4 _
  congr 1
  funext a
  apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- the query operand. -/
theorem x_block_eq (c : Dev nD) (t : Fin cfg0.N) :
    (iblk m c 5 t : Vec Ideal S512x128 _) = (V m c main_v1 : Cert.Spec.Arr 512 128) := by
  obtain ⟨-, -, -, -, -, -, -, -, -, -, e0, e1, -⟩ := idx_facts t
  funext j
  unfold iblk
  rw [View.read_apply]
  show V m c main_v1 _ = V m c main_v1 _
  congr 1
  funext a
  apply Fin.ext
  match a with
  | ⟨0, _⟩ => show win0_5.index t (0 : Fin 2) * 512 + 1 * (j 0).val = (j 0).val; omega
  | ⟨1, _⟩ => show win0_5.index t (1 : Fin 2) * 128 + 1 * (j 1).val = (j 1).val; omega

/-- Entry `[b, r]` of what point `t` leaves in the output's buffer is entry `[b, 256 t + r]` of the padded score matrix
    of the arrays the region finds. -/
theorem block_entry (c : Dev nD) (t : Fin cfg0.N) (b : Fin 512) (r : Fin 256) (v : Fin 40448) (hv : v.val = 256 * t.val + r.val) :
    out0_6 (F := Ideal) (iblk m c 0 t) (iblk m c 1 t) (iblk m c 2 t) (iblk m c 3 t) (iblk m c 4 t) (iblk m c 5 t) (ix2 b r)
      = Cert.Spec.scores (V m c main_arg0) (V m c main_arg1) (V m c main_arg2) (V m c main_arg3) (V m c main_arg4)
          (V m c main_v1) (ix2 b v) := by
  refine (out_apply (iblk m c 0 t) (iblk m c 1 t) (iblk m c 2 t) (iblk m c 3 t) (iblk m c 4 t) (iblk m c 5 t) b r).trans ?_
  rw [wc_block_eq m c t, mask_block_eq m c t, wa_block_eq m c t, bias_block_eq m c t, x_block_eq m c t]
  show Cert.Spec.score _ _ _ _ _ (fun k => (iblk m c 0 t : Vec Ideal S256x384 .bf16) (ix2 r k)) b
    = Cert.Spec.score _ _ _ _ _ (fun k => (V m c main_arg0 : Cert.Spec.Arr 40448 384) (ix2 v k)) b
  congr 1
  funext k
  exact slab_block_apply m c t r k v hv

/-- WHAT POINT `t` WRITES BACK is block `t` of the padded score matrix of the arrays the region finds. -/
theorem flushed_eq (c : Dev nD) (t : Fin cfg0.N) :
    (dats m 0 c).flushed 6 t = ((cfg0.win 6).blk t).view.read (Elt Ideal)
      (Cert.Spec.scores (V m c main_arg0) (V m c main_arg1) (V m c main_arg2) (V m c main_arg3) (V m c main_arg4) (V m c main_v1)) := by
  show (cfg0.win 6).cut (grid0.coords t) ((dats m 0 c).after 6 t) = _
  rw [after0_6]
  obtain ⟨-, -, -, -, -, -, -, -, -, -, -, -, e0, e1⟩ := idx_facts t
  funext j
  have hj1 : ((j 1 : Fin 256) : Nat) < 256 := (j 1).isLt
  have hN : cfg0.N = 158 := N_0
  have ht : t.val < 158 := by have := t.isLt; omega
  have key := block_entry m c t (j 0) (j 1) ⟨256 * t.val + (j 1).val, by omega⟩ rfl
  rw [View.read_apply]
  show out0_6 (F := Ideal) (iblk m c 0 t) (iblk m c 1 t) (iblk m c 2 t) (iblk m c 3 t) (iblk m c 4 t) (iblk m c 5 t) j = _
  refine ((congrArg (out0_6 (F := Ideal) (iblk m c 0 t) (iblk m c 1 t) (iblk m c 2 t) (iblk m c 3 t) (iblk m c 4 t) (iblk m c 5 t)) (eq_ix2 j)).trans key).trans ?_
  congr 1
  funext a
  apply Fin.ext
  match a with
  | ⟨0, _⟩ => show (j 0).val = win0_6.index t (0 : Fin 2) * 512 + 1 * (j 0).val; omega
  | ⟨1, _⟩ => show 256 * t.val + (j 1).val = win0_6.index t (1 : Fin 2) * 256 + 1 * (j 1).val; omega

/-- An index of the array is in point `t`'s block iff each coordinate is in the block's range on its axis. -/
theorem mem_blk (t : Fin cfg0.N) (i : S512x40448.Idx) :
    i ∈ ((cfg0.win 6).blk t).view.set ↔ ∀ a : Fin 2, win0_6.index t a * S512x256.size a ≤ (i a).val
      ∧ (i a).val < win0_6.index t a * S512x256.size a + S512x256.size a := by
  show i ∈ ((View.whole main_v2).slice (win0_6.rect t)).set ↔ _
  rw [View.set_slice_whole, Rect.mem_set_unit]
  exact Iff.rfl

/-- Every index of the padded matrix is in some point's block: column `v` in the block of point `v / 256`. -/
theorem covered (i : S512x40448.Idx) :
    ∃ t : Fin cfg0.N, (cfg0.win 6).flush t = true ∧ i ∈ ((cfg0.win 6).blk t).view.set := by
  have hi0 : (i 0).val < 512 := (i 0).isLt
  have hi1 : (i 1).val < 40448 := (i 1).isLt
  have hN : cfg0.N = 158 := N_0
  refine ⟨⟨(i 1).val / 256, by rw [hN]; omega⟩, flush0_6 _, ?_⟩
  obtain ⟨-, -, -, -, -, -, -, -, -, -, -, -, e0, e1⟩ := idx_facts ⟨(i 1).val / 256, by rw [hN]; omega⟩
  rw [mem_blk]
  intro a
  match a with
  | ⟨0, _⟩ =>
    show win0_6.index _ (0 : Fin 2) * 512 ≤ (i 0).val ∧ (i 0).val < win0_6.index _ (0 : Fin 2) * 512 + 512
    rw [e0]; omega
  | ⟨1, _⟩ =>
    show win0_6.index _ (1 : Fin 2) * 256 ≤ (i 1).val ∧ (i 1).val < win0_6.index _ (1 : Fin 2) * 256 + 256
    rw [e1]; show (i 1).val / 256 * 256 ≤ (i 1).val ∧ (i 1).val < (i 1).val / 256 * 256 + 256; omega

/-- THE ARRAY after the run: the padded score matrix of the arrays the region finds. -/
theorem final (c : Dev nD) : (dats m 0 c).arrAt 6 cfg0.N
    = Cert.Spec.scores (V m c main_arg0) (V m c main_arg1) (V m c main_arg2) (V m c main_arg3) (V m c main_arg4) (V m c main_v1) :=
  (dats m 0 c).arrAt_eq_of_cover 6 _ (fun t _ => flushed_eq m c t) covered

/-- The result buffer is no window's array: the region leaves it to the operation after it. -/
theorem v3_rest : main_v3 ∈ Pipeline.restRefs sig (cfgs 0).spec :=
  Pipeline.mem_restRefs_of main_v3 (by decide) (by decide)

/-- The slice after the region, of the padded score matrix, is the score matrix without the padding's columns, of
    the arguments as launched. -/
theorem tail_eq (c : Dev nD) : Pipeline.afterTail₀ cfgs (dats m) 0 (V0 m) [hostOps1] c main_v3
    = Cert.Spec.result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = Cert.Spec.scores (V m c main_arg0) (V m c main_arg1) (V m c main_arg2) (V m c main_arg3) (V m c main_arg4) (V m c main_v1) :=
    (Pipeline.withArrays_arr spec0 launch0.win.arr_inj c _ _ 6).trans (final m c)
  rw [hw, V_main_arg0, V_main_arg1, V_main_arg2, V_main_arg3, V_main_arg4, xpad_eq]
  funext j
  have hj1 : (j 1).val < 40000 := idx2_lt1 j
  refine (extractStridedSlice_apply _ _ _ j (ix2 (j 0) ⟨(j 1).val, by omega⟩) (fun a => ?_)).trans ?_
  · match a with
    | ⟨0, _⟩ => show (j 0).val = 0 + (j 0).val; omega
    | ⟨1, _⟩ => show (j 1).val = 0 + (j 1).val; omega
  · rfl

/-- The run, read: the result buffer ends at `Cert.Spec.result` of the argument arrays, the arguments unchanged. -/
theorem run : θ_run defs (onTc (τ := τ) (main (F := Ideal))) ⟨m, fun _ => 0, ρ⟩ (fun r => ∀ c : Dev nD,
      r.2.mem ((c.tc : Thread nD τ).loc main_v3) = Cert.Spec.result (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_v3 v3_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)

end Cert.ReferenceIdeal.Bridge
end
-- ==== Proof.lean ====
/-
  Both programs score every query against every vocabulary row of a character-CNN word encoder: a row's characters
  and word embedding meet one packed weight matrix (all convolution widths at all time positions, and the word
  projection), the convolution outputs are masked and maximised over the sixteen time positions, squashed, projected
  and squashed again, and the result is multiplied into the queries. The kernel takes 512 vocabulary rows per grid
  point and forms the big product in eight column chunks; the reference takes 256 rows and forms it whole. Entry by
  entry the two compute the same extended real, by the same operations in the same order (Proof/Spec.lean): a chunk's
  column is a column of the whole product, and a row's score does not depend on which block the row lies in. The
  reference first writes the queries into a zero array of their own shape, which leaves the queries.
  The frames are the generated ones; nothing was idealized, so `preserves` is trivial; `algebraic` joins the two runs
  at the specification's score matrix (Proof/KArr.lean, Proof/RArr.lean).
-/
import proofs.«154384_g2000609228658301_pallasbulk_245_2_alg».proof.Defs
import proofs.«154384_g2000609228658301_pallasbulk_245_2_alg».proof.Proof.Gen.Kernel
import proofs.«154384_g2000609228658301_pallasbulk_245_2_alg».proof.Proof.Gen.Kernel.Frame
import proofs.«154384_g2000609228658301_pallasbulk_245_2_alg».proof.Proof.Gen.KernelIdeal
import proofs.«154384_g2000609228658301_pallasbulk_245_2_alg».proof.Proof.Gen.KernelIdeal.Frame
import proofs.«154384_g2000609228658301_pallasbulk_245_2_alg».proof.Proof.Gen.ReferenceIdeal
import proofs.«154384_g2000609228658301_pallasbulk_245_2_alg».proof.Proof.Gen.ReferenceIdeal.Frame
import proofs.«154384_g2000609228658301_pallasbulk_245_2_alg».proof.Proof.Gen.Pre_finite_inputs
import proofs.«154384_g2000609228658301_pallasbulk_245_2_alg».proof.Proof.KArr
import proofs.«154384_g2000609228658301_pallasbulk_245_2_alg».proof.Proof.RArr
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- Nothing was rewritten between the kernel and its idealization. -/
theorem preserves : Cert.preserves_Kernel_KernelIdeal := trivial

/-- Both runs end with the specification's score matrix of their argument arrays, and the arguments agree. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Bridge.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
